-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S4096x2048 : Shape := ⟨2, ![4096, 2048]⟩
abbrev S64x4096 : Shape := ⟨2, ![64, 4096]⟩
abbrev S4096 : Shape := ⟨1, ![4096]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S65536 : Shape := ⟨1, ![65536]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S65536 : S_.BroadcastsInDim S65536 (![] : Fin 0 → Fin S65536.rank)
  reducesTo_S65536_S_d0 : S65536.ReducesTo [0] S_

variable [Facts]

def fn_part3 {F : FTy → Type} [FloatOps F] (main_arg10 : IVec S65536 32) (main_arg11 : IVec S65536 32) (main_v48 : IVec S_ 1) (main_v50 : IVec S65536 1) : IVec S_ 1 :=
  let main_c_19 : IVec S_ 1 := constantI S_ 1 1#1
  let main_v51 : IVec S_ 1 := (fun x v => Host.reduce IntOp.andi x v reducesTo_S65536_S_d0 h_S_) main_v50 main_c_19
  let main_v52 : IVec S_ 1 := andi main_v48 main_v51
  let main_c_20 : IVec S_ 32 := constantI S_ 32 2048#32
  let main_v53 : IVec S65536 32 := broadcastInDim S65536 ![] bcast_S_S65536 main_c_20
  let main_v54 : IVec S65536 1 := cmpi .slt main_arg10 main_v53
  let main_c_21 : IVec S_ 1 := constantI S_ 1 1#1
  let main_v55 : IVec S_ 1 := (fun x v => Host.reduce IntOp.andi x v reducesTo_S65536_S_d0 h_S_) main_v54 main_c_21
  let main_v56 : IVec S_ 1 := andi main_v52 main_v55
  let main_c_22 : IVec S_ 32 := constantI S_ 32 0#32
  let main_v57 : IVec S65536 32 := broadcastInDim S65536 ![] bcast_S_S65536 main_c_22
  let main_v58 : IVec S65536 1 := cmpi .sge main_arg11 main_v57
  let main_c_23 : IVec S_ 1 := constantI S_ 1 1#1
  let main_v59 : IVec S_ 1 := (fun x v => Host.reduce IntOp.andi x v reducesTo_S65536_S_d0 h_S_) main_v58 main_c_23
  let main_v60 : IVec S_ 1 := andi main_v56 main_v59
  let main_c_24 : IVec S_ 32 := constantI S_ 32 2048#32
  let main_v61 : IVec S65536 32 := broadcastInDim S65536 ![] bcast_S_S65536 main_c_24
  let main_v62 : IVec S65536 1 := cmpi .slt main_arg11 main_v61
  let main_c_25 : IVec S_ 1 := constantI S_ 1 1#1
  let main_v63 : IVec S_ 1 := (fun x v => Host.reduce IntOp.andi x v reducesTo_S65536_S_d0 h_S_) main_v62 main_c_25
  let main_v64 : IVec S_ 1 := andi main_v60 main_v63
  main_v64

def fn_part2 {F : FTy → Type} [FloatOps F] (main_arg7 : FVec F S16 .f32) (main_arg8 : FVec F S16x1 .f32) (main_arg9 : FVec F S1 .f32) (main_arg10 : IVec S65536 32) (main_arg11 : IVec S65536 32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x1 .f32 := Host.absf main_arg8
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S65536 32 := broadcastInDim S65536 ![] bcast_S_S65536 main_c_18
  let main_v50 : IVec S65536 1 := cmpi .sge main_arg10 main_v49
  fn_part3 (F := F) main_arg10 main_arg11 main_v48 main_v50

def fn_part1 {F : FTy → Type} [FloatOps F] (main_arg4 : FVec F S2048x64 .f32) (main_arg5 : FVec F S64 .f32) (main_arg6 : FVec F S64x16 .f32) (main_arg7 : FVec F S16 .f32) (main_arg8 : FVec F S16x1 .f32) (main_arg9 : FVec F S1 .f32) (main_arg10 : IVec S65536 32) (main_arg11 : IVec S65536 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S2048x64 .f32 := Host.absf main_arg4
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x64 .f32) (main_arg1 : FVec F S4096x2048 .f32) (main_arg2 : FVec F S64x4096 .f32) (main_arg3 : FVec F S4096 .f32) (main_arg4 : FVec F S2048x64 .f32) (main_arg5 : FVec F S64 .f32) (main_arg6 : FVec F S64x16 .f32) (main_arg7 : FVec F S16 .f32) (main_arg8 : FVec F S16x1 .f32) (main_arg9 : FVec F S1 .f32) (main_arg10 : IVec S65536 32) (main_arg11 : IVec S65536 32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_v13 main_v16
-- ==== Kernel.lean ====
abbrev S2048x64 : Shape := ⟨2, ![2048, 64]⟩
abbrev S4096x2048 : Shape := ⟨2, ![4096, 2048]⟩
abbrev S64x4096 : Shape := ⟨2, ![64, 4096]⟩
abbrev S4096 : Shape := ⟨1, ![4096]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S65536 : Shape := ⟨1, ![65536]⟩
abbrev S_ : Shape := ⟨0, ![]⟩
abbrev S2048 : Shape := ⟨1, ![2048]⟩
abbrev S65536x1 : Shape := ⟨2, ![65536, 1]⟩
abbrev S2048x1 : Shape := ⟨2, ![2048, 1]⟩
abbrev S2048x2048 : Shape := ⟨2, ![2048, 2048]⟩
abbrev S65536x2 : Shape := ⟨2, ![65536, 2]⟩
abbrev S1x4096 : Shape := ⟨2, ![1, 4096]⟩
abbrev S2048x4096 : Shape := ⟨2, ![2048, 4096]⟩
abbrev S512x2048 : Shape := ⟨2, ![512, 2048]⟩
abbrev S512x1 : Shape := ⟨2, ![512, 1]⟩
abbrev S512x4096 : Shape := ⟨2, ![512, 4096]⟩
abbrev S512x64 : Shape := ⟨2, ![512, 64]⟩
abbrev S4096x256 : Shape := ⟨2, ![4096, 256]⟩
abbrev S2048x256 : Shape := ⟨2, ![2048, 256]⟩
abbrev S1x64 : Shape := ⟨2, ![1, 64]⟩
abbrev S1x16 : Shape := ⟨2, ![1, 16]⟩
abbrev S1x1 : Shape := ⟨2, ![1, 1]⟩
abbrev S512x16 : Shape := ⟨2, ![512, 16]⟩

abbrev nBuf : Space → Nat
  | .hbm => 70
  | .vmem => 28
  | .smem => 0
  | _ => 0

abbrev bufTy : (tb : Table) → Fin (tcTables nBuf tb) → BufTy
  | .hbm, ⟨0, _⟩ => ⟨S2048x64, .f32⟩
  | .hbm, ⟨1, _⟩ => ⟨S4096x2048, .f32⟩
  | .hbm, ⟨2, _⟩ => ⟨S64x4096, .f32⟩
  | .hbm, ⟨3, _⟩ => ⟨S4096, .f32⟩
  | .hbm, ⟨4, _⟩ => ⟨S2048x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S65536, .i32⟩
  | .hbm, ⟨11, _⟩ => ⟨S65536, .i32⟩
  | .hbm, ⟨12, _⟩ => ⟨S_, .f32⟩
  | .hbm, ⟨13, _⟩ => ⟨S65536, .f32⟩
  | .hbm, ⟨14, _⟩ => ⟨S_, .f32⟩
  | .hbm, ⟨15, _⟩ => ⟨S2048, .f32⟩
  | .hbm, ⟨16, _⟩ => ⟨S65536x1, .i32⟩
  | .hbm, ⟨17, _⟩ => ⟨S2048, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S65536x1, .i32⟩
  | .hbm, ⟨25, _⟩ => ⟨S2048, .f32⟩
  | .hbm, ⟨26, _⟩ => ⟨S_, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x2048, .f32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S_, .i32⟩
  | .hbm, ⟨48, _⟩ => ⟨S65536, .i32⟩
  | .hbm, ⟨49, _⟩ => ⟨S65536, .i1⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S65536x1, .i32⟩
  | .hbm, ⟨55, _⟩ => ⟨S65536x1, .i32⟩
  | .hbm, ⟨56, _⟩ => ⟨S65536x2, .i32⟩
  | .hbm, ⟨57, _⟩ => ⟨S_, .f32⟩
  | .hbm, ⟨58, _⟩ => ⟨S65536, .f32⟩
  | .hbm, ⟨59, _⟩ => ⟨S2048x2048, .f32⟩
  | .hbm, ⟨60, _⟩ => ⟨S2048x2048, .bf16⟩
  | .hbm, ⟨61, _⟩ => ⟨S2048x64, .f32⟩
  | .hbm, ⟨62, _⟩ => ⟨S2048x64, .f32⟩
  | .hbm, ⟨63, _⟩ => ⟨S1x4096, .f32⟩
  | .hbm, ⟨64, _⟩ => ⟨S2048x4096, .bf16⟩
  | .hbm, ⟨65, _⟩ => ⟨S2048x2048, .bf16⟩
  | .hbm, ⟨66, _⟩ => ⟨S1x64, .f32⟩
  | .hbm, ⟨67, _⟩ => ⟨S1x16, .f32⟩
  | .hbm, ⟨68, _⟩ => ⟨S1x1, .f32⟩
  | .hbm, ⟨69, _⟩ => ⟨S2048x1, .f32⟩
  | .local _ .vmem, ⟨0, _⟩ => ⟨S512x2048, .bf16⟩
  | .local _ .vmem, ⟨1, _⟩ => ⟨S512x2048, .bf16⟩
  | .local _ .vmem, ⟨2, _⟩ => ⟨S2048x64, .f32⟩
  | .local _ .vmem, ⟨3, _⟩ => ⟨S512x1, .f32⟩
  | .local _ .vmem, ⟨4, _⟩ => ⟨S512x1, .f32⟩
  | .local _ .vmem, ⟨5, _⟩ => ⟨S64x4096, .f32⟩
  | .local _ .vmem, ⟨6, _⟩ => ⟨S1x4096, .f32⟩
  | .local _ .vmem, ⟨7, _⟩ => ⟨S512x4096, .bf16⟩
  | .local _ .vmem, ⟨8, _⟩ => ⟨S512x4096, .bf16⟩
  | .local _ .vmem, ⟨9, _⟩ => ⟨S2048x4096, .bf16⟩
  | .local _ .vmem, ⟨10, _⟩ => ⟨S4096x256, .f32⟩
  | .local _ .vmem, ⟨11, _⟩ => ⟨S4096x256, .f32⟩
  | .local _ .vmem, ⟨12, _⟩ => ⟨S2048x1, .f32⟩
  | .local _ .vmem, ⟨13, _⟩ => ⟨S2048x256, .bf16⟩
  | .local _ .vmem, ⟨14, _⟩ => ⟨S2048x256, .bf16⟩
  | .local _ .vmem, ⟨15, _⟩ => ⟨S512x2048, .bf16⟩
  | .local _ .vmem, ⟨16, _⟩ => ⟨S512x2048, .bf16⟩
  | .local _ .vmem, ⟨17, _⟩ => ⟨S2048x2048, .bf16⟩
  | .local _ .vmem, ⟨18, _⟩ => ⟨S512x1, .f32⟩
  | .local _ .vmem, ⟨19, _⟩ => ⟨S512x1, .f32⟩
  | .local _ .vmem, ⟨20, _⟩ => ⟨S2048x64, .f32⟩
  | .local _ .vmem, ⟨21, _⟩ => ⟨S1x64, .f32⟩
  | .local _ .vmem, ⟨22, _⟩ => ⟨S64x16, .f32⟩
  | .local _ .vmem, ⟨23, _⟩ => ⟨S1x16, .f32⟩
  | .local _ .vmem, ⟨24, _⟩ => ⟨S16x1, .f32⟩
  | .local _ .vmem, ⟨25, _⟩ => ⟨S1x1, .f32⟩
  | .local _ .vmem, ⟨26, _⟩ => ⟨S512x1, .f32⟩
  | .local _ .vmem, ⟨27, _⟩ => ⟨S512x1, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_cst_4 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_7 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_8 : Ref sig .tc := ⟨.hbm, 47, rfl⟩
abbrev main_v21 : Ref sig .tc := ⟨.hbm, 48, rfl⟩
abbrev main_v22 : Ref sig .tc := ⟨.hbm, 49, rfl⟩
abbrev main_c_9 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_10 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2048x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S65536 : S_.BroadcastsInDim S65536 (![] : Fin 0 → Fin S65536.rank)
  bcast_S_S2048 : S_.BroadcastsInDim S2048 (![] : Fin 0 → Fin S2048.rank)
  bcast_S65536_S65536x1_0 : S65536.BroadcastsInDim S65536x1 (![0] : Fin 1 → Fin S65536x1.rank)
  bcast_S2048_S2048x1_0 : S2048.BroadcastsInDim S2048x1 (![0] : Fin 1 → Fin S2048x1.rank)
  bcast_S_S2048x2048 : S_.BroadcastsInDim S2048x2048 (![] : Fin 0 → Fin S2048x2048.rank)
  concatenates_S65536x1_S65536x1_S65536x2_d1 : Shape.Concatenates [S65536x1, S65536x1] S65536x2 1
  bitsLt_bf16_f32 : FTy.bits .bf16 < FTy.bits .f32
  bcast_S2048x1_S2048x64_0_1 : S2048x1.BroadcastsInDim S2048x64 (![0, 1] : Fin 2 → Fin S2048x64.rank)
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S64x4096_S64x4096_0_0 : ∀ a, (![0, 0] : Fin 2 → Nat) a + S64x4096.size a ≤ S64x4096.size a
  h_S64x4096 : 0 < S64x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x256_S4096x256_0_0 : ∀ a, (![0, 0] : Fin 2 → Nat) a + S4096x256.size a ≤ S4096x256.size a
  h_S4096x256 : 0 < S4096x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  shapeCasts_S64_S1x64 : S64.ShapeCasts S1x64
  shapeCasts_S16_S1x16 : S16.ShapeCasts S1x16
  shapeCasts_S1_S1x1 : S1.ShapeCasts S1x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S512x1_S512x2048 : S512x1.Broadcasts S512x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S2048_S65536x1_S65536_n_0_0_1_wf : ScatterDims.WF S2048 S65536x1 S65536 [] [0] [0] 1
  scatter_S2048x2048_S65536x2_S65536_n_01_01_1_wf : ScatterDims.WF S2048x2048 S65536x2 S65536 [] [0, 1] [0, 1] 1
  dot_S512x2048_S2048x64_S512x64_1_0_0_1_n_n_wf : DotDims.WF S512x2048 S2048x64 S512x64 [1] [0] [0] [1] [] []
  dot_S512x64_S64x4096_S512x4096_1_0_0_1_n_n_wf : DotDims.WF S512x64 S64x4096 S512x4096 [1] [0] [0] [1] [] []
  dot_S2048x4096_S4096x256_S2048x256_1_0_0_1_n_n_wf : DotDims.WF S2048x4096 S4096x256 S2048x256 [1] [0] [0] [1] [] []
  dot_S512x2048_S2048x2048_S512x2048_1_0_0_1_n_n_wf : DotDims.WF S512x2048 S2048x2048 S512x2048 [1] [0] [0] [1] [] []
  dot_S512x64_S64x16_S512x16_1_0_0_1_n_n_wf : DotDims.WF S512x64 S64x16 S512x16 [1] [0] [0] [1] [] []
  dot_S512x16_S16x1_S512x1_1_0_0_1_n_n_wf : DotDims.WF S512x16 S16x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .f32 = 32 ∨ (Rect.block (s := S2048x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .f32 = 32 ∨ (Rect.block (s := S64x4096) S64x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S2048x4096.size a
  hwx0_5 : ∀ i : grid0.Coords, EltTy.bits .bf16 = 32 ∨ (Rect.block (s := S2048x4096) S512x4096.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S2048x4096.size a
  hwx1_0 : ∀ i : grid1.Coords, EltTy.bits .bf16 = 32 ∨ (Rect.block (s := S2048x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x2048.size a
  hwx1_1 : ∀ i : grid1.Coords, EltTy.bits .f32 = 32 ∨ (Rect.block (s := S4096x2048) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S2048x1.size a
  hwx1_2 : ∀ i : grid1.Coords, EltTy.bits .f32 = 32 ∨ (Rect.block (s := S2048x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S2048x2048.size a
  hwx1_3 : ∀ i : grid1.Coords, EltTy.bits .bf16 = 32 ∨ (Rect.block (s := S2048x2048) S2048x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S2048x2048.size a
  hwx2_0 : ∀ i : grid2.Coords, EltTy.bits .bf16 = 32 ∨ (Rect.block (s := S2048x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S2048x1.size a
  hwx2_2 : ∀ i : grid2.Coords, EltTy.bits .f32 = 32 ∨ (Rect.block (s := S2048x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S2048x64.size a
  hwx2_3 : ∀ i : grid2.Coords, EltTy.bits .f32 = 32 ∨ (Rect.block (s := S2048x64) S2048x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16x1.size a ≤ S16x1.size a
  hwx2_7 : ∀ i : grid2.Coords, EltTy.bits .f32 = 32 ∨ (Rect.block (s := S16x1) S16x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x1.size a ≤ S2048x1.size a
  hwx2_9 : ∀ i : grid2.Coords, EltTy.bits .f32 = 32 ∨ (Rect.block (s := S2048x1) S512x1.size (cc2_transform_9 i) (hinb2_9 i)).WholeWords (EltTy.packing .f32)

variable [Facts₀]

def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def scatter_S2048x2048_S65536x2_S65536_n_01_01_1 : ScatterDims S2048x2048 S65536x2 S65536 where
  updateWindowDims := []
  insertedWindowDims := [0, 1]
  scatterDimsToOperandDims := [0, 1]
  indexVectorDim := 1
  wf := scatter_S2048x2048_S65536x2_S65536_n_01_01_1_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S2048x4096_S4096x256_S2048x256_1_0_0_1_n_n : DotDims S2048x4096 S4096x256 S2048x256 where
  lhsContracting := [1]
  rhsContracting := [0]
  lhsNonContracting := [0]
  rhsNonContracting := [1]
  lhsBatch := []
  rhsBatch := []
  wf := dot_S2048x4096_S4096x256_S2048x256_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf

abbrev win0_0 : Pipeline.Window sig grid0 :=
  Pipeline.Window.ofSpec (Memref.whole main_v31) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S2048x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S16x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v39) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v40) S512x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S2048x64 : Shape := ⟨2, ![2048, 64]⟩
abbrev S4096x2048 : Shape := ⟨2, ![4096, 2048]⟩
abbrev S64x4096 : Shape := ⟨2, ![64, 4096]⟩
abbrev S4096 : Shape := ⟨1, ![4096]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S65536 : Shape := ⟨1, ![65536]⟩
abbrev S_ : Shape := ⟨0, ![]⟩
abbrev S2048 : Shape := ⟨1, ![2048]⟩
abbrev S65536x1 : Shape := ⟨2, ![65536, 1]⟩
abbrev S2048x1 : Shape := ⟨2, ![2048, 1]⟩
abbrev S65536x64 : Shape := ⟨2, ![65536, 64]⟩
abbrev S2048x4096 : Shape := ⟨2, ![2048, 4096]⟩
abbrev S1x4096 : Shape := ⟨2, ![1, 4096]⟩
abbrev S2048x2048 : Shape := ⟨2, ![2048, 2048]⟩
abbrev S65536x2048 : Shape := ⟨2, ![65536, 2048]⟩
abbrev S1x64 : Shape := ⟨2, ![1, 64]⟩
abbrev S2048x16 : Shape := ⟨2, ![2048, 16]⟩
abbrev S1x16 : Shape := ⟨2, ![1, 16]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S4096x2048, .f32⟩
  | .hbm, ⟨2, _⟩ => ⟨S64x4096, .f32⟩
  | .hbm, ⟨3, _⟩ => ⟨S4096, .f32⟩
  | .hbm, ⟨4, _⟩ => ⟨S2048x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S65536, .i32⟩
  | .hbm, ⟨11, _⟩ => ⟨S65536, .i32⟩
  | .hbm, ⟨12, _⟩ => ⟨S_, .f32⟩
  | .hbm, ⟨13, _⟩ => ⟨S65536, .f32⟩
  | .hbm, ⟨14, _⟩ => ⟨S_, .f32⟩
  | .hbm, ⟨15, _⟩ => ⟨S2048, .f32⟩
  | .hbm, ⟨16, _⟩ => ⟨S65536x1, .i32⟩
  | .hbm, ⟨17, _⟩ => ⟨S2048, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S65536x1, .i32⟩
  | .hbm, ⟨25, _⟩ => ⟨S2048, .f32⟩
  | .hbm, ⟨26, _⟩ => ⟨S_, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S2048x64, .f32⟩
  | .hbm, ⟨39, _⟩ => ⟨S2048x64, .f32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S65536x1, .i32⟩
  | .hbm, ⟨48, _⟩ => ⟨S65536x64, .f32⟩
  | .hbm, ⟨49, _⟩ => ⟨S_, .f32⟩
  | .hbm, ⟨50, _⟩ => ⟨S2048x64, .f32⟩
  | .hbm, ⟨51, _⟩ => ⟨S65536x1, .i32⟩
  | .hbm, ⟨52, _⟩ => ⟨S2048x64, .f32⟩
  | .hbm, ⟨53, _⟩ => ⟨S2048x64, .f32⟩
  | .hbm, ⟨54, _⟩ => ⟨S2048x64, .f32⟩
  | .hbm, ⟨55, _⟩ => ⟨S2048x4096, .f32⟩
  | .hbm, ⟨56, _⟩ => ⟨S1x4096, .f32⟩
  | .hbm, ⟨57, _⟩ => ⟨S2048x4096, .f32⟩
  | .hbm, ⟨58, _⟩ => ⟨S2048x4096, .f32⟩
  | .hbm, ⟨59, _⟩ => ⟨S_, .f32⟩
  | .hbm, ⟨60, _⟩ => ⟨S2048x4096, .f32⟩
  | .hbm, ⟨61, _⟩ => ⟨S2048x4096, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S_, .i32⟩
  | .hbm, ⟨69, _⟩ => ⟨S65536, .i32⟩
  | .hbm, ⟨70, _⟩ => ⟨S65536, .i32⟩
  | .hbm, ⟨71, _⟩ => ⟨S65536, .i32⟩
  | .hbm, ⟨72, _⟩ => ⟨S65536x1, .i32⟩
  | .hbm, ⟨73, _⟩ => ⟨S65536x2048, .f32⟩
  | .hbm, ⟨74, _⟩ => ⟨S_, .f32⟩
  | .hbm, ⟨75, _⟩ => ⟨S2048x2048, .f32⟩
  | .hbm, ⟨76, _⟩ => ⟨S65536x1, .i32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048x2048, .f32⟩
  | .hbm, ⟨82, _⟩ => ⟨S2048x2048, .f32⟩
  | .hbm, ⟨83, _⟩ => ⟨S2048x64, .f32⟩
  | .hbm, ⟨84, _⟩ => ⟨S1x64, .f32⟩
  | .hbm, ⟨85, _⟩ => ⟨S2048x64, .f32⟩
  | .hbm, ⟨86, _⟩ => ⟨S2048x64, .f32⟩
  | .hbm, ⟨87, _⟩ => ⟨S_, .f32⟩
  | .hbm, ⟨88, _⟩ => ⟨S2048x64, .f32⟩
  | .hbm, ⟨89, _⟩ => ⟨S2048x64, .f32⟩
  | .hbm, ⟨90, _⟩ => ⟨S2048x16, .f32⟩
  | .hbm, ⟨91, _⟩ => ⟨S1x16, .f32⟩
  | .hbm, ⟨92, _⟩ => ⟨S2048x16, .f32⟩
  | .hbm, ⟨93, _⟩ => ⟨S2048x16, .f32⟩
  | .hbm, ⟨94, _⟩ => ⟨S_, .f32⟩
  | .hbm, ⟨95, _⟩ => ⟨S2048x16, .f32⟩
  | .hbm, ⟨96, _⟩ => ⟨S2048x16, .f32⟩
  | .hbm, ⟨97, _⟩ => ⟨S2048x1, .f32⟩
  | .hbm, ⟨98, _⟩ => ⟨S1x1, .f32⟩
  | .hbm, ⟨99, _⟩ => ⟨S2048x1, .f32⟩
  | .hbm, ⟨100, _⟩ => ⟨S2048x1, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_cst_4 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_cst : Ref sig .tc := ⟨.hbm, 59, rfl⟩
abbrev main_call2_v0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_c_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call3_cst : Ref sig .tc := ⟨.hbm, 80, rfl⟩
abbrev main_call3_v0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call4_cst : Ref sig .tc := ⟨.hbm, 87, rfl⟩
abbrev main_call4_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call5_cst : Ref sig .tc := ⟨.hbm, 94, rfl⟩
abbrev main_call5_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S2048 : S_.BroadcastsInDim S2048 (![] : Fin 0 → Fin S2048.rank)
  bcast_S65536_S65536x1_0 : S65536.BroadcastsInDim S65536x1 (![0] : Fin 1 → Fin S65536x1.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S_S2048x64 : S_.BroadcastsInDim S2048x64 (![] : Fin 0 → Fin S2048x64.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S2048_S65536x1_S65536_n_0_0_1_wf : ScatterDims.WF S2048 S65536x1 S65536 [] [0] [0] 1
  gather_S2048x64_S65536x1_S65536x64_1_0_n_n_0_1_164_wf : GatherDims.WF S2048x64 S65536x1 S65536x64 [1] [0] [] [0] [] 1 ![1, 64]
  scatter_S2048x64_S65536x1_S65536x64_1_0_0_1_wf : ScatterDims.WF S2048x64 S65536x1 S65536x64 [1] [0] [0] 1
  dot_S2048x64_S64x4096_S2048x4096_1_0_0_1_n_n_wf : DotDims.WF S2048x64 S64x4096 S2048x4096 [1] [0] [0] [1] [] []
  dot_S2048x4096_S4096x2048_S2048x2048_1_0_0_1_n_n_wf : DotDims.WF S2048x4096 S4096x2048 S2048x2048 [1] [0] [0] [1] [] []
  gather_S2048x2048_S65536x1_S65536x2048_1_0_n_n_0_1_12048_wf : GatherDims.WF S2048x2048 S65536x1 S65536x2048 [1] [0] [] [0] [] 1 ![1, 2048]
  scatter_S2048x2048_S65536x1_S65536x2048_1_0_0_1_wf : ScatterDims.WF S2048x2048 S65536x1 S65536x2048 [1] [0] [0] 1
  dot_S2048x2048_S2048x64_S2048x64_1_0_0_1_n_n_wf : DotDims.WF S2048x2048 S2048x64 S2048x64 [1] [0] [0] [1] [] []
  dot_S2048x64_S64x16_S2048x16_1_0_0_1_n_n_wf : DotDims.WF S2048x64 S64x16 S2048x16 [1] [0] [0] [1] [] []
  dot_S2048x16_S16x1_S2048x1_1_0_0_1_n_n_wf : DotDims.WF S2048x16 S16x1 S2048x1 [1] [0] [0] [1] [] []

variable [Facts₀]

def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def gather_S2048x64_S65536x1_S65536x64_1_0_n_n_0_1_164 : GatherDims S2048x64 S65536x1 S65536x64 where
  offsetDims := [1]
  collapsedSliceDims := [0]
  operandBatchingDims := []
  startIndicesBatchingDims := []
  startIndexMap := [0]
  indexVectorDim := 1
  sliceSizes := ![1, 64]
  wf := gather_S2048x64_S65536x1_S65536x64_1_0_n_n_0_1_164_wf
def scatter_S2048x64_S65536x1_S65536x64_1_0_0_1 : ScatterDims S2048x64 S65536x1 S65536x64 where
  updateWindowDims := [1]
  insertedWindowDims := [0]
  scatterDimsToOperandDims := [0]
  indexVectorDim := 1
  wf := scatter_S2048x64_S65536x1_S65536x64_1_0_0_1_wf
def dot_S2048x64_S64x4096_S2048x4096_1_0_0_1_n_n : DotDims S2048x64 S64x4096 S2048x4096 where
  lhsContracting := [1]
  rhsContracting := [0]
  lhsNonContracting := [0]
  rhsNonContracting := [1]
  lhsBatch := []
  rhsBatch := []
  wf := dot_S2048x64_S64x4096_S2048x4096_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf
def gather_S2048x2048_S65536x1_S65536x2048_1_0_n_n_0_1_12048 : GatherDims S2048x2048 S65536x1 S65536x2048 where
  offsetDims := [1]
  collapsedSliceDims := [0]
  operandBatchingDims := []
  startIndicesBatchingDims := []
  startIndexMap := [0]
  indexVectorDim := 1
  sliceSizes := ![1, 2048]
  wf := gather_S2048x2048_S65536x1_S65536x2048_1_0_n_n_0_1_12048_wf
def scatter_S2048x2048_S65536x1_S65536x2048_1_0_0_1 : ScatterDims S2048x2048 S65536x1 S65536x2048 where
  updateWindowDims := [1]
  insertedWindowDims := [0]
  scatterDimsToOperandDims := [0]
  indexVectorDim := 1
  wf := scatter_S2048x2048_S65536x1_S65536x2048_1_0_0_1_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

class Facts : Prop extends Facts₀ where

variable [Facts]
-- ==== Proof.Spec.lean ====
/-
  The two programs as whole-array functions over the extended reals.

  A graph of 65536 edges on 2048 nodes is given by two index lists, `src` and `dst`. Summing a table's rows
  over the in-edges of each node (`segAgg`) is the product of the table with the matrix that counts, at (d, s), the
  edges from s to d (`cnt`, `matAgg`): `matAgg_cnt`. Around that aggregation both programs apply the same
  dense layers: a scaling by a per-node factor, a product with a weight matrix, a bias, and a maximum with zero.
-/
import Idealize.ShloMosaic.PureOps.Ideal
import Idealize.ShloMosaic.Lib.ValueIdx

noncomputable section

open scoped BigOperators

namespace Cert.Spec

open Idealize.ShloMosaic Idealize.ShloMosaic.ValueIdx

/-- An a × b table of extended reals, read at a rank-2 index. -/
abbrev Mat (a b : Nat) : Type := (⟨2, ![a, b]⟩ : Shape).Idx → EReal

/-- The row coordinate of a rank-2 index. -/
abbrev row {a b : Nat} (i : (⟨2, ![a, b]⟩ : Shape).Idx) : Fin a := i 0

/-- The column coordinate of a rank-2 index. -/
abbrev col {a b : Nat} (i : (⟨2, ![a, b]⟩ : Shape).Idx) : Fin b := i 1

/-- The product of a 2048 × 2048 matrix with a table of 2048 rows. -/
def matAgg {D : Nat} (A : Mat 2048 2048) (h : Mat 2048 D) : Mat 2048 D :=
  fun i => ∑ s : Fin 2048, A (ix2 (row i) s) * h (ix2 s (col i))

/-- Row d of the result is the sum, over the edges that end at d, of the table's row at the edge's source. -/
def segAgg {D : Nat} (dst src : Fin 65536 → Fin 2048) (h : Mat 2048 D) : Mat 2048 D :=
  fun i => ∑ e ∈ Finset.univ.filter (fun e : Fin 65536 => dst e = (row i)), h (ix2 (src e) (col i))

/-- The number of edges from s to d, at (d, s). -/
def cnt (dst src : Fin 65536 → Fin 2048) : Mat 2048 2048 :=
  fun i => ∑ _e ∈ Finset.univ.filter (fun e : Fin 65536 => dst e = (row i) ∧ src e = (col i)), (1 : EReal)

/-- The first graph layer after its aggregation `g`: scale row i by `nd i`, multiply by `W1`, add the bias, clip below at zero. -/
def dense1 (g : Mat 2048 64) (nd : Fin 2048 → EReal) (W1 : Mat 64 4096) (b1 : Fin 4096 → EReal) : Mat 2048 4096 :=
  fun i => max ((∑ k : Fin 64, (g (ix2 (row i) k) * nd (row i)) * W1 (ix2 k (col i))) + b1 (col i)) 0

/-- The second layer before its aggregation: multiply by the weight, scale row i by `ns i`. -/
def mm1 (X : Mat 2048 4096) (Wt : Mat 4096 2048) (ns : Fin 2048 → EReal) : Mat 2048 2048 :=
  fun i => (∑ k : Fin 4096, X (ix2 (row i) k) * Wt (ix2 k (col i))) * ns (row i)

/-- The second layer after its aggregation `g` — scale, clip — and the three dense layers of the head. -/
def head (g : Mat 2048 2048) (nd : Fin 2048 → EReal) (Wl1 : Mat 2048 64) (bl1 : Fin 64 → EReal) (Wl2 : Mat 64 16)
    (bl2 : Fin 16 → EReal) (Wl3 : Mat 16 1) (bl3 : Fin 1 → EReal) : Mat 2048 1 :=
  fun i =>
    (∑ q : Fin 16,
        max ((∑ p : Fin 64,
            max ((∑ s : Fin 2048, max (g (ix2 (row i) s) * nd (row i)) 0 * Wl1 (ix2 s p)) + bl1 p) 0
              * Wl2 (ix2 p q)) + bl2 q) 0
          * Wl3 (ix2 q (col i))) + bl3 (col i)

/-- The kernel: both aggregations as products with one matrix `A`. -/
def kernelOut (A : Mat 2048 2048) (hs : Mat 2048 64) (nd ns : Fin 2048 → EReal) (W1 : Mat 64 4096) (b1 : Fin 4096 → EReal)
    (Wt : Mat 4096 2048) (Wl1 : Mat 2048 64) (bl1 : Fin 64 → EReal) (Wl2 : Mat 64 16) (bl2 : Fin 16 → EReal)
    (Wl3 : Mat 16 1) (bl3 : Fin 1 → EReal) : Mat 2048 1 :=
  head (matAgg A (mm1 (dense1 (matAgg A hs) nd W1 b1) Wt ns)) nd Wl1 bl1 Wl2 bl2 Wl3 bl3

/-- The reference: both aggregations as sums over in-edges. -/
def refOut (dst src : Fin 65536 → Fin 2048) (hs : Mat 2048 64) (nd ns : Fin 2048 → EReal) (W1 : Mat 64 4096)
    (b1 : Fin 4096 → EReal) (Wt : Mat 4096 2048) (Wl1 : Mat 2048 64) (bl1 : Fin 64 → EReal) (Wl2 : Mat 64 16)
    (bl2 : Fin 16 → EReal) (Wl3 : Mat 16 1) (bl3 : Fin 1 → EReal) : Mat 2048 1 :=
  head (segAgg dst src (mm1 (dense1 (segAgg dst src hs) nd W1 b1) Wt ns)) nd Wl1 bl1 Wl2 bl2 Wl3 bl3

end Cert.Spec

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.KI.Region0.lean ====
/-
  The first call: one graph-convolution layer, row block by row block.

  The call walks four blocks of 512 rows. On a block it multiplies the block's rows of the 2048 × 2048 count matrix with
  the scaled features (2048 × 64), scales row r of the product by the destination factor of node r, multiplies by the
  64 × 4096 weight, adds the bias to every row and clips below at zero. Entry (r, q) of the result depends only on row r
  of the count matrix, on the factor of r, on column q of the weight and on the bias at q, and the features, the weight
  and the bias are read whole at every block, so the four blocks written back are the restrictions of ONE function of
  the five arrays — the first layer's dense part applied to the product of the count matrix with the features — and,
  as the row blocks fill the 2048 rows, the output array ends holding that function.
-/
import proofs.«407745_j8830452760606_3_alg».proof.Proof.Gen.KernelIdeal.Frame
import proofs.«407745_j8830452760606_3_alg».proof.Proof.Spec
import proofs.«407745_j8830452760606_3_alg».proof.Proof.LibDot
import proofs.«407745_j8830452760606_3_alg».proof.Proof.LibRowsCols
import Idealize.ShloMosaic.Lib.Pipeline.Value
import Idealize.ShloMosaic.Lib.ValueLayout

set_option maxRecDepth 16384

noncomputable section

open scoped BigOperators

namespace Cert.KI.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at one entry of its block -/

/-- The first product at (p, k): row p of the count block against column k of the scaled features. -/
private theorem agg_apply (x0 : FVec Ideal S512x2048 .bf16) (x1 : FVec Ideal S2048x64 .f32) (p : Fin 512) (k : Fin 64) :
    matmul (F := Ideal) dot_S512x2048_S2048x64_S512x64_1_0_0_1_n_n none
        (shapeCast S512x2048 x0 shapeCasts_S512x2048_S512x2048)
        (truncf .bf16 (shapeCast S2048x64 x1 shapeCasts_S2048x64_S2048x64) bitsLt_bf16_f32)
        (constant S512x64 .f32 0x00000000#32) (ix2 p k)
      = ∑ s : Fin 2048, x0 (ix2 p s) * x1 (ix2 s k) := by
  refine (Cert.Lib.Dot.matmul0_rows_cols dot_S512x2048_S2048x64_S512x64_1_0_0_1_n_n rfl rfl rfl rfl rfl rfl _ _ p k).trans ?_
  rw [shapeCast_self, shapeCast_self]
  rfl

/-- The body's result at row p, column q of its block: the row of the count block times the scaled features, scaled by
    the row's factor, times the weight's column, plus the bias, clipped below at zero. Over the extended reals the
    changes of float format are the identity and both products, into zero accumulators, are plain sums. -/
private theorem pay_apply (x0 : Vec Ideal S512x2048 .bf16) (x1 : Vec Ideal S2048x64 .f32) (x2 : Vec Ideal S512x1 .f32)
    (x3 : Vec Ideal S64x4096 .f32) (x4 : Vec Ideal S1x4096 .f32) (p : Fin 512) (q : Fin 4096) :
    k0_pay1 (F := Ideal) x0 x1 x2 x3 x4 (ix2 p q)
      = max ((∑ k : Fin 64, ((∑ s : Fin 2048, x0 (ix2 p s) * x1 (ix2 s k)) * x2 (ix2 p (0 : Fin 1))) * x3 (ix2 k q))
          + x4 (ix2 (0 : Fin 1) q)) 0 := by
  unfold k0_pay1
  rw [truncf_apply, maximumf_apply, addf_apply, broadcast_apply]
  refine congrArg₂ max (congrArg₂ (· + ·) ?_ ?_) Ideal.ofBits_zero_f32
  · refine (Cert.Lib.Dot.matmul0_rows_cols dot_S512x64_S64x4096_S512x4096_1_0_0_1_n_n rfl rfl rfl rfl rfl rfl _ _ p q).trans ?_
    refine Finset.sum_congr rfl fun k _ => ?_
    rw [truncf_apply, truncf_apply, mulf_apply]
    refine congrArg₂ (· * ·) (congrArg₂ (· * ·) (agg_apply x0 x1 p k) ?_) rfl
    rw [RowsCols.broadcastTo_a1_ab_apply, shapeCast_self]
  · rw [broadcastTo_1b_ab_apply, shapeCast_self]

/-! ## The blocks as rows of the arrays -/

-- the TensorCore's buffer contents when the region is entered
variable (V : (c : Dev nD) → (b : Ref sig .tc) → Buf (Elt Ideal) ((c : Thread nD τ).loc b))

private theorem offsets_zero : (![0, 0] : Fin 2 → Nat) = fun _ => 0 := funext fun a => by fin_cases a <;> rfl

/-- The five arrays the call reads, as tables of extended reals: the count matrix, the scaled features, the
    destination factor, the weight, the bias. -/
private abbrev cntArr (c : Dev nD) : S2048x2048.Idx → EReal := V c main_v31
private abbrev featArr (c : Dev nD) : S2048x64.Idx → EReal := V c main_v33
private abbrev factorArr (c : Dev nD) : S2048x1.Idx → EReal := V c main_v14
private abbrev weightArr (c : Dev nD) : S64x4096.Idx → EReal := V c main_arg2
private abbrev biasArr (c : Dev nD) : S1x4096.Idx → EReal := V c main_v34

/-- The output array as one function of the five arrays the call reads. -/
private abbrev layer1 (c : Dev nD) : S2048x4096.Idx → EReal :=
  Cert.Spec.dense1 (Cert.Spec.matAgg (cntArr V c) (featArr V c)) (fun i => factorArr V c (ix2 i (0 : Fin 1)))
    (weightArr V c) (fun j => biasArr V c (ix2 (0 : Fin 1) j))

/-- That function at row r, column q. -/
private theorem layer1_apply (c : Dev nD) (r : Fin 2048) (q : Fin 4096) :
    layer1 V c (ix2 r q)
      = max ((∑ k : Fin 64, ((∑ s : Fin 2048, cntArr V c (ix2 r s) * featArr V c (ix2 s k)) * factorArr V c (ix2 r (0 : Fin 1)))
          * weightArr V c (ix2 k q)) + biasArr V c (ix2 (0 : Fin 1) q)) 0 := rfl

/-- The block indices over the grid: at point t the count matrix, the row factors and the output are at row block t;
    the features, the weight and the bias are whole. -/
private theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The count matrix's block at point t holds rows 512 t … 512 t + 511. -/
private theorem countBlock_apply (c : Dev nD) (t : Fin cfg0.N) (p : Fin 512) (s : Fin 2048) (r : Fin 2048)
    (hr : r.val = t.val * 512 + p.val) :
    (iblk0 V c 0 t : Vec Ideal S512x2048 .bf16) (ix2 p s) = cntArr V c (ix2 r s) := by
  obtain ⟨e0, e1, -⟩ := index_facts t
  unfold iblk0
  rw [View.read_apply]
  show V c main_v31 _ = V c main_v31 _
  congr 1
  funext a
  apply Fin.ext
  match a with
  | ⟨0, _⟩ => show win0_0.index t (0 : Fin 2) * 512 + 1 * p.val = r.val; omega
  | ⟨1, _⟩ => show win0_0.index t (1 : Fin 2) * 2048 + 1 * s.val = s.val; omega

/-- The scaled features' block is the whole table at every point. -/
private theorem featBlock_apply (c : Dev nD) (t : Fin cfg0.N) (s : Fin 2048) (k : Fin 64) :
    (iblk0 V c 1 t : Vec Ideal S2048x64 .f32) (ix2 s k) = featArr V c (ix2 s k) := by
  obtain ⟨-, -, e0, e1, -⟩ := index_facts t
  unfold iblk0
  rw [View.read_apply]
  show V c main_v33 _ = V c main_v33 _
  congr 1
  funext a
  apply Fin.ext
  match a with
  | ⟨0, _⟩ => show win0_1.index t (0 : Fin 2) * 2048 + 1 * s.val = s.val; omega
  | ⟨1, _⟩ => show win0_1.index t (1 : Fin 2) * 64 + 1 * k.val = k.val; omega

/-- The row factors' block at point t holds rows 512 t … 512 t + 511. -/
private theorem factorBlock_apply (c : Dev nD) (t : Fin cfg0.N) (p : Fin 512) (r : Fin 2048)
    (hr : r.val = t.val * 512 + p.val) :
    (iblk0 V c 2 t : Vec Ideal S512x1 .f32) (ix2 p (0 : Fin 1)) = factorArr V c (ix2 r (0 : Fin 1)) := by
  obtain ⟨-, -, -, -, e0, e1, -⟩ := index_facts t
  unfold iblk0
  rw [View.read_apply]
  show V c main_v14 _ = V c main_v14 _
  congr 1
  funext a
  apply Fin.ext
  match a with
  | ⟨0, _⟩ => show win0_2.index t (0 : Fin 2) * 512 + 1 * p.val = r.val; omega
  | ⟨1, _⟩ => show win0_2.index t (1 : Fin 2) * 1 + 1 * 0 = 0; omega

/-- The weight's block is the whole matrix at every point. -/
private theorem weightBlock_apply (c : Dev nD) (t : Fin cfg0.N) (k : Fin 64) (q : Fin 4096) :
    (iblk0 V c 3 t : Vec Ideal S64x4096 .f32) (ix2 k q) = weightArr V c (ix2 k q) := by
  obtain ⟨-, -, -, -, -, -, e0, e1, -⟩ := index_facts t
  unfold iblk0
  rw [View.read_apply]
  show V c main_arg2 _ = V c main_arg2 _
  congr 1
  funext a
  apply Fin.ext
  match a with
  | ⟨0, _⟩ => show win0_3.index t (0 : Fin 2) * 64 + 1 * k.val = k.val; omega
  | ⟨1, _⟩ => show win0_3.index t (1 : Fin 2) * 4096 + 1 * q.val = q.val; omega

/-- The bias's block is the whole row at every point. -/
private theorem biasBlock_apply (c : Dev nD) (t : Fin cfg0.N) (q : Fin 4096) :
    (iblk0 V c 4 t : Vec Ideal S1x4096 .f32) (ix2 (0 : Fin 1) q) = biasArr V c (ix2 (0 : Fin 1) q) := by
  obtain ⟨-, -, -, -, -, -, -, -, e0, e1, -⟩ := index_facts t
  unfold iblk0
  rw [View.read_apply]
  show V c main_v34 _ = V c main_v34 _
  congr 1
  funext a
  apply Fin.ext
  match a with
  | ⟨0, _⟩ => show win0_4.index t (0 : Fin 2) * 1 + 1 * 0 = 0; omega
  | ⟨1, _⟩ => show win0_4.index t (1 : Fin 2) * 4096 + 1 * q.val = q.val; omega

/-- The output's block at point t is rows 512 t … 512 t + 511 of the array. -/
private theorem outBlock_emb (t : Fin cfg0.N) (p : Fin 512) (q : Fin 4096) (r : Fin 2048) (hr : r.val = t.val * 512 + p.val) :
    (((cfg0.win 5).blk t).view.emb (ix2 p q) : S2048x4096.Idx) = ix2 r q := by
  obtain ⟨-, -, -, -, -, -, -, -, -, -, e0, e1⟩ := index_facts t
  funext a
  apply Fin.ext
  match a with
  | ⟨0, _⟩ => show win0_5.index t (0 : Fin 2) * 512 + 1 * p.val = r.val; omega
  | ⟨1, _⟩ => show win0_5.index t (1 : Fin 2) * 4096 + 1 * q.val = q.val; omega

/-- What point t writes back is block t of the layer's function of the arrays the call reads. -/
private theorem flushed_eq (c : Dev nD) (t : Fin cfg0.N) :
    (dat0 (F := Ideal) V c).flushed 5 t = ((cfg0.win 5).blk t).view.read (Elt Ideal) (layer1 V c) := by
  show (cfg0.win 5).cut (grid0.coords t) ((dat0 V c).after 5 t) = _
  rw [after0_5]
  unfold out0_5
  rw [View.canon_unit_zero offsets_zero]
  simp only [View.ld_unit_zero (S := S512x2048) offsets_zero, View.ld_unit_zero (S := S2048x64) offsets_zero,
    View.ld_unit_zero (S := S512x1) offsets_zero, View.ld_unit_zero (S := S64x4096) offsets_zero,
    View.ld_unit_zero (S := S1x4096) offsets_zero]
  funext j
  obtain ⟨p, q, rfl⟩ : ∃ (p : Fin 512) (q : Fin 4096), j = ix2 p q := ⟨j 0, j 1, eq_ix2 j⟩
  have hN : grid0.N = 4 := N_0
  have ht : t.val < 4 := hN ▸ t.isLt
  have hr : t.val * 512 + p.val < 2048 := by have := p.isLt; omega
  refine (pay_apply (iblk0 V c 0 t) (iblk0 V c 1 t) (iblk0 V c 2 t) (iblk0 V c 3 t) (iblk0 V c 4 t) p q).trans ?_
  rw [View.read_apply, outBlock_emb t p q ⟨t.val * 512 + p.val, hr⟩ rfl, layer1_apply,
    factorBlock_apply V c t p ⟨t.val * 512 + p.val, hr⟩ rfl, biasBlock_apply V c t q]
  refine congrArg (fun z => max (z + _) 0) (Finset.sum_congr rfl fun k _ => ?_)
  rw [weightBlock_apply V c t k q]
  refine congrArg (fun z => z * _ * _) (Finset.sum_congr rfl fun s _ => ?_)
  rw [countBlock_apply V c t p s ⟨t.val * 512 + p.val, hr⟩ rfl, featBlock_apply V c t s k]

/-- An index of the output array is in point t's block when each coordinate is in the block's range on its axis. -/
private theorem mem_outBlock (t : Fin cfg0.N) (i : S2048x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v35).slice (win0_5.rect t)).set ↔ _
  rw [View.set_slice_whole, Rect.mem_set_unit]
  exact Iff.rfl

/-- The four row blocks fill the array: row r is in the block of point r / 512. -/
private theorem covered (i : S2048x4096.Idx) :
    ∃ t : Fin cfg0.N, (cfg0.win 5).flush t = true ∧ i ∈ ((cfg0.win 5).blk t).view.set := by
  have hN : grid0.N = 4 := N_0
  have hi0 : (i 0).val < 2048 := (i 0).isLt
  have hi1 : (i 1).val < 4096 := (i 1).isLt
  have hlt : (i 0).val / 512 < grid0.N := by rw [hN]; omega
  obtain ⟨-, -, -, -, -, -, -, -, -, -, e0, e1⟩ := index_facts ⟨(i 0).val / 512, hlt⟩
  refine ⟨⟨(i 0).val / 512, hlt⟩, flush0_5 _, ?_⟩
  rw [mem_outBlock]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, hlt⟩ (1 : Fin 2) * 4096 ≤ (i 1).val
      ∧ (i 1).val < win0_5.index ⟨(i 0).val / 512, hlt⟩ (1 : Fin 2) * 4096 + 4096
    rw [e1]; omega

/-- After the first call, its output array is the first layer's dense part of the product of the count matrix
    with the scaled features, as one function of the arrays the call reads. -/
theorem final0 (c : Dev nD) :
    (dat0 (F := Ideal) V c).arrAt 5 cfg0.N
      = Cert.Spec.dense1 (Cert.Spec.matAgg (V c main_v31) (V c main_v33)) (fun i => V c main_v14 (ix2 i (0 : Fin 1)))
          (V c main_arg2) (fun j => V c main_v34 (ix2 (0 : Fin 1) j)) :=
  (dat0 (F := Ideal) V c).arrAt_eq_of_cover 5 (layer1 V c) (fun t _ => flushed_eq V c t) covered

end Cert.KI.Region0

end
-- ==== Proof.KI.Region1.lean ====
/-
  The second call's output as one function of the arrays it reads.

  The call runs over eight points. Point t reads the whole first layer's output (2048 × 4096), columns
  256 t … 256 t + 255 of the weight (4096 × 2048) and the whole column of per-node factors (2048 × 1), and writes
  columns 256 t … 256 t + 255 of the result (2048 × 2048). Its body multiplies the first layer's output by the weight
  block and scales row p by the factor of node p. Read at an entry (p, q) of the block this is
  (∑ k, X (p, k) · W (k, 256 t + q)) · ns p, the whole-array function at (p, 256 t + q); the eight column blocks
  cover the result, column q lying in the block of point q / 256.
-/
import proofs.«407745_j8830452760606_3_alg».proof.Proof.Gen.KernelIdeal.Frame
import proofs.«407745_j8830452760606_3_alg».proof.Proof.Spec
import proofs.«407745_j8830452760606_3_alg».proof.Proof.LibDot
import proofs.«407745_j8830452760606_3_alg».proof.Proof.LibRowsCols
import Idealize.ShloMosaic.Lib.Pipeline.Value
import Idealize.ShloMosaic.Lib.ValueLayout

set_option maxRecDepth 16384

noncomputable section

open scoped BigOperators

namespace Cert.KI.Region1

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The block's entry at (p, q): row p of the first layer's output against column q of the weight block, times the
    factor of node p. -/
private theorem pay_apply (x : Vec Ideal S2048x4096 .bf16) (w : Vec Ideal S4096x256 .f32) (ns : Vec Ideal S2048x1 .f32)
    (p : Fin 2048) (q : Fin 256) :
    k1_pay1 (F := Ideal) x w ns (ix2 p q)
      = (∑ k : Fin 4096, x (ix2 p k) * w (ix2 k q)) * ns (ix2 p (0 : Fin 1)) := by
  unfold k1_pay1
  refine (truncf_apply (φ := .f32) (ψ := .bf16) _ bitsLt_bf16_f32 (ix2 p q)).trans ?_
  refine (mulf_apply (φ := .f32) _ _ (ix2 p q)).trans ?_
  refine congrArg₂ (· * ·) ?_ ?_
  · refine (Cert.Lib.Dot.matmul0_rows_cols dot_S2048x4096_S4096x256_S2048x256_1_0_0_1_n_n rfl rfl rfl rfl rfl rfl _ _ p q).trans ?_
    rw [shapeCast_self]
    rfl
  · refine (Idealize.ShloMosaic.RowsCols.broadcastTo_a1_ab_apply _ _ p q).trans ?_
    rw [shapeCast_self]

/-- The block's entry at (p, q) is the whole-array function at (p, q') when the blocks read the arrays there: the
    first layer's output in place, the weight's column q of the block being the weight's column q', the factors
    in place. -/
private theorem pay_eq_mm1 (X : Cert.Spec.Mat 2048 4096) (Wt : Cert.Spec.Mat 4096 2048) (nsA : Cert.Spec.Mat 2048 1)
    (x : Vec Ideal S2048x4096 .bf16) (w : Vec Ideal S4096x256 .f32) (ns : Vec Ideal S2048x1 .f32)
    (p : Fin 2048) (q : Fin 256) (q' : Fin 2048)
    (hx : ∀ k : Fin 4096, x (ix2 p k) = X (ix2 p k))
    (hw : ∀ k : Fin 4096, w (ix2 k q) = Wt (ix2 k q'))
    (hns : ns (ix2 p (0 : Fin 1)) = nsA (ix2 p (0 : Fin 1))) :
    k1_pay1 (F := Ideal) x w ns (ix2 p q)
      = Cert.Spec.mm1 X Wt (fun r => nsA (ix2 r (0 : Fin 1))) (ix2 p q') := by
  rw [pay_apply, hns]
  unfold Cert.Spec.mm1
  show (∑ k : Fin 4096, x (ix2 p k) * w (ix2 k q)) * nsA (ix2 p (0 : Fin 1))
    = (∑ k : Fin 4096, X (ix2 p k) * Wt (ix2 k q')) * nsA (ix2 p (0 : Fin 1))
  congr 1
  exact Finset.sum_congr rfl fun k _ => by rw [hx k, hw k]

/-- A block's offsets inside its staging buffer are zero on both axes. -/
private theorem zero_offsets : (![0, 0] : Fin 2 → Nat) = fun _ => 0 := funext fun a => by fin_cases a <;> rfl

/-- The windows' block indices at point t, decided over the grid: the first layer's output, the factors and the rows
    of the weight and of the result stay at block 0; the weight's and the result's column blocks are block t. -/
private theorem index_facts : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

/-- What point t writes back is block t of the whole-array function: columns 256 t … 256 t + 255 of the product of
    the first layer's output with the weight, each row scaled by its node's factor. The block's entry (p, q) reads
    row p of the first layer's output, column 256 t + q of the weight and the factor of node p. -/
private theorem flushed_eq (c : Dev nD) (t : Fin cfg1.N) :
    (dat1 (F := Ideal) V c).flushed 3 t = ((cfg1.win 3).blk t).view.read (Elt Ideal)
      (Cert.Spec.mm1 (V c main_v35) (V c main_arg1) (fun i => V c main_v11 (ix2 i (0 : Fin 1)))) := by
  show (cfg1.win 3).cut (grid1.coords t) ((dat1 V c).after 3 t) = _
  rw [after1_3]
  unfold out1_3
  rw [View.canon_unit_zero zero_offsets]
  simp only [View.ld_unit_zero (S := S2048x4096) zero_offsets, View.ld_unit_zero (S := S4096x256) zero_offsets,
    View.ld_unit_zero (S := S2048x1) zero_offsets]
  funext j
  obtain ⟨e00, e01, e10, e11, e20, e21, e30, e31⟩ := index_facts t
  have ht : t.val < 8 := lt_of_lt_of_eq t.isLt N_1
  have hj0 : (j 0).val < 2048 := (j 0).isLt
  have hj1 : (j 1).val < 256 := (j 1).isLt
  have hq' : t.val * 256 + (j 1).val < 2048 := by omega
  have hL : (win1 3).xinj (grid1.coords t) j = ix2 (⟨(j 0).val, hj0⟩ : Fin 2048) (⟨(j 1).val, hj1⟩ : Fin 256) :=
    funext fun a => match a with | ⟨0, _⟩ => rfl | ⟨1, _⟩ => rfl
  have hR : ((View.whole main_v36).slice ((win1 3).rect t)).emb j
      = ix2 (⟨(j 0).val, hj0⟩ : Fin 2048) (⟨t.val * 256 + (j 1).val, hq'⟩ : Fin 2048) := by
    funext a; apply Fin.ext
    match a with
    | ⟨0, _⟩ => show win1_3.index t (0 : Fin 2) * 2048 + 1 * (j 0).val = (j 0).val; omega
    | ⟨1, _⟩ => show win1_3.index t (1 : Fin 2) * 256 + 1 * (j 1).val = t.val * 256 + (j 1).val; omega
  refine (congrArg (k1_pay1 (F := Ideal) (iblk1 V c 0 t) (iblk1 V c 1 t) (iblk1 V c 2 t)) hL).trans ?_
  refine Eq.trans ?_ (congrArg (Cert.Spec.mm1 (V c main_v35) (V c main_arg1) (fun i => V c main_v11 (ix2 i (0 : Fin 1)))) hR).symm
  refine pay_eq_mm1 (V c main_v35) (V c main_arg1) (V c main_v11) (iblk1 V c 0 t) (iblk1 V c 1 t) (iblk1 V c 2 t)
    (⟨(j 0).val, hj0⟩ : Fin 2048) (⟨(j 1).val, hj1⟩ : Fin 256) (⟨t.val * 256 + (j 1).val, hq'⟩ : Fin 2048)
    (fun k => ?_) (fun k => ?_) ?_
  · show V c main_v35 (((cfg1.win 0).blk t).view.emb (ix2 (⟨(j 0).val, hj0⟩ : Fin 2048) k))
      = V c main_v35 (ix2 (⟨(j 0).val, hj0⟩ : Fin 2048) k)
    refine congrArg (V c main_v35) (funext fun a => Fin.ext ?_)
    match a with
    | ⟨0, _⟩ => show win1_0.index t (0 : Fin 2) * 2048 + 1 * (j 0).val = (j 0).val; omega
    | ⟨1, _⟩ => show win1_0.index t (1 : Fin 2) * 4096 + 1 * k.val = k.val; omega
  · show V c main_arg1 (((cfg1.win 1).blk t).view.emb (ix2 k (⟨(j 1).val, hj1⟩ : Fin 256)))
      = V c main_arg1 (ix2 k (⟨t.val * 256 + (j 1).val, hq'⟩ : Fin 2048))
    refine congrArg (V c main_arg1) (funext fun a => Fin.ext ?_)
    match a with
    | ⟨0, _⟩ => show win1_1.index t (0 : Fin 2) * 4096 + 1 * k.val = k.val; omega
    | ⟨1, _⟩ => show win1_1.index t (1 : Fin 2) * 256 + 1 * (j 1).val = t.val * 256 + (j 1).val; omega
  · show V c main_v11 (((cfg1.win 2).blk t).view.emb (ix2 (⟨(j 0).val, hj0⟩ : Fin 2048) (0 : Fin 1)))
      = V c main_v11 (ix2 (⟨(j 0).val, hj0⟩ : Fin 2048) (0 : Fin 1))
    refine congrArg (V c main_v11) (funext fun a => Fin.ext ?_)
    match a with
    | ⟨0, _⟩ => show win1_2.index t (0 : Fin 2) * 2048 + 1 * (j 0).val = (j 0).val; omega
    | ⟨1, _⟩ => show win1_2.index t (1 : Fin 2) * 1 + 1 * 0 = 0; omega

/-- An index of the result lies in point t's block iff each coordinate lies in the block's range on its axis. -/
private theorem mem_block (t : Fin cfg1.N) (i : S2048x2048.Idx) :
    i ∈ ((cfg1.win 3).blk t).view.set ↔ ∀ a : Fin 2, win1_3.index t a * S2048x256.size a ≤ (i a).val
      ∧ (i a).val < win1_3.index t a * S2048x256.size a + S2048x256.size a := by
  show i ∈ ((View.whole main_v36).slice (win1_3.rect t)).set ↔ _
  rw [View.set_slice_whole, Rect.mem_set_unit]
  exact Iff.rfl

/-- The eight column blocks cover the result: column q lies in the block of point q / 256. -/
private theorem covered (i : S2048x2048.Idx) :
    ∃ t : Fin cfg1.N, (cfg1.win 3).flush t = true ∧ i ∈ ((cfg1.win 3).blk t).view.set := by
  have hi0 : (i 0).val < 2048 := (i 0).isLt
  have hi1 : (i 1).val < 2048 := (i 1).isLt
  obtain ⟨t, ht⟩ : ∃ t : Fin cfg1.N, t.val = (i 1).val / 256 :=
    ⟨⟨(i 1).val / 256, lt_of_lt_of_eq (by omega : (i 1).val / 256 < 8) N_1.symm⟩, rfl⟩
  obtain ⟨-, -, -, -, -, -, e30, e31⟩ := index_facts t
  refine ⟨t, flush1_3 t, ?_⟩
  rw [mem_block]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 256 ≤ (i 1).val ∧ (i 1).val < win1_3.index t (1 : Fin 2) * 256 + 256
    omega

/-- After the second call, its output array is the first layer's output times the weight, each row scaled by
    its node's factor, as one function of the arrays the call reads. -/
theorem final1 (c : Dev nD) :
    (dat1 (F := Ideal) V c).arrAt 3 cfg1.N
      = Cert.Spec.mm1 (V c main_v35) (V c main_arg1) (fun i => V c main_v11 (ix2 i (0 : Fin 1))) :=
  (dat1 (F := Ideal) V c).arrAt_eq_of_cover 3 _ (fun t _ => flushed_eq V c t) covered

end Cert.KI.Region1

end
-- ==== Proof.KI.Pay2.lean ====
import proofs.«407745_j8830452760606_3_alg».proof.Proof.Gen.KernelIdeal.Skeleton
import proofs.«407745_j8830452760606_3_alg».proof.Proof.LibDot
import proofs.«407745_j8830452760606_3_alg».proof.Proof.LibRowsCols
import Idealize.ShloMosaic.Lib.Pipeline.Value
import Idealize.ShloMosaic.Lib.ValueLayout
import Idealize.ShloMosaic.PureOps.Ideal.Laws

set_option maxRecDepth 16384

noncomputable section

open scoped BigOperators

namespace Cert.KI.Pay2

open Cert.KernelIdeal Cert.KernelIdeal.Gen Idealize.ShloMosaic Idealize.ShloMosaic.ValueIdx

/-- The zero word of the 32-bit format is the extended real zero. -/
private theorem zero_word : FloatOps.ofBits (F := Ideal) .f32 0x00000000#32 = 0 :=
  (Ideal.ofBits_def _).trans Ideal.ofBits_zero_f32

/-- The aggregation layer at (p, q): a rows-by-columns product into zeros, each row scaled by its entry of a column,
    clipped below at zero; the change of format afterwards is the identity on extended reals. -/
private theorem agg_apply {M K N : Nat} (d : DotDims ⟨2, ![M, K]⟩ ⟨2, ![K, N]⟩ ⟨2, ![M, N]⟩) (hd : Cert.Lib.Dot.IsRowsCols d)
    (l : FVec Ideal ⟨2, ![M, K]⟩ .bf16) (r : FVec Ideal ⟨2, ![K, N]⟩ .bf16) (c : FVec Ideal ⟨2, ![M, 1]⟩ .f32)
    (hlt : FTy.bits .bf16 < FTy.bits .f32) (hb : (⟨2, ![M, 1]⟩ : Shape).Broadcasts ⟨2, ![M, N]⟩) (p : Fin M) (q : Fin N) :
    (truncf .bf16 (maximumf (mulf (matmul (F := Ideal) d none l r (constant ⟨2, ![M, N]⟩ .f32 0x00000000#32))
        (broadcastTo ⟨2, ![M, N]⟩ c hb)) (broadcast ⟨2, ![M, N]⟩ (FloatOps.ofBits (F := Ideal) .f32 0x00000000#32))) hlt) (ix2 p q)
      = max ((∑ k : Fin K, l (ix2 p k) * r (ix2 k q)) * c (ix2 p (0 : Fin 1))) 0 := by
  rw [truncf_apply, maximumf_apply, mulf_apply, broadcast_apply, Cert.Lib.Dot.matmul0_rc d hd,
    RowsCols.broadcastTo_a1_ab_apply, zero_word]

/-- A dense layer at (p, q): a rows-by-columns product into zeros plus the bias row, with no clip. The weight's
    change of format is the identity on extended reals. -/
private theorem dense_apply {M K N : Nat} (d : DotDims ⟨2, ![M, K]⟩ ⟨2, ![K, N]⟩ ⟨2, ![M, N]⟩) (hd : Cert.Lib.Dot.IsRowsCols d)
    (l : FVec Ideal ⟨2, ![M, K]⟩ .bf16) (w : FVec Ideal ⟨2, ![K, N]⟩ .f32) (b : FVec Ideal ⟨2, ![1, N]⟩ .f32)
    (hlt : FTy.bits .bf16 < FTy.bits .f32) (hb : (⟨2, ![1, N]⟩ : Shape).Broadcasts ⟨2, ![M, N]⟩) (p : Fin M) (q : Fin N) :
    (addf (matmul (F := Ideal) d none l (truncf .bf16 w hlt) (constant ⟨2, ![M, N]⟩ .f32 0x00000000#32))
        (broadcastTo ⟨2, ![M, N]⟩ b hb)) (ix2 p q)
      = (∑ k : Fin K, l (ix2 p k) * w (ix2 k q)) + b (ix2 (0 : Fin 1) q) := by
  rw [addf_apply, Cert.Lib.Dot.matmul0_rc d hd, broadcastTo_1b_ab_apply]
  rfl

/-- A dense layer followed by a clip at zero, at (p, q). -/
private theorem dense_relu_apply {M K N : Nat} (d : DotDims ⟨2, ![M, K]⟩ ⟨2, ![K, N]⟩ ⟨2, ![M, N]⟩) (hd : Cert.Lib.Dot.IsRowsCols d)
    (l : FVec Ideal ⟨2, ![M, K]⟩ .bf16) (w : FVec Ideal ⟨2, ![K, N]⟩ .f32) (b : FVec Ideal ⟨2, ![1, N]⟩ .f32)
    (hlt : FTy.bits .bf16 < FTy.bits .f32) (hb : (⟨2, ![1, N]⟩ : Shape).Broadcasts ⟨2, ![M, N]⟩) (p : Fin M) (q : Fin N) :
    (truncf .bf16 (maximumf (addf (matmul (F := Ideal) d none l (truncf .bf16 w hlt) (constant ⟨2, ![M, N]⟩ .f32 0x00000000#32))
        (broadcastTo ⟨2, ![M, N]⟩ b hb)) (broadcast ⟨2, ![M, N]⟩ (FloatOps.ofBits (F := Ideal) .f32 0x00000000#32))) hlt) (ix2 p q)
      = max ((∑ k : Fin K, l (ix2 p k) * w (ix2 k q)) + b (ix2 (0 : Fin 1) q)) 0 := by
  rw [truncf_apply, maximumf_apply, broadcast_apply, dense_apply d hd, zero_word]

/-- The four products of the call are rows by columns: the left operand contracted on its second axis, the right on its
    first, with no batch axis. -/
private theorem rc_agg : Cert.Lib.Dot.IsRowsCols dot_S512x2048_S2048x2048_S512x2048_1_0_0_1_n_n := ⟨rfl, rfl, rfl, rfl, rfl, rfl⟩
private theorem rc_l1 : Cert.Lib.Dot.IsRowsCols dot_S512x2048_S2048x64_S512x64_1_0_0_1_n_n := ⟨rfl, rfl, rfl, rfl, rfl, rfl⟩
private theorem rc_l2 : Cert.Lib.Dot.IsRowsCols dot_S512x64_S64x16_S512x16_1_0_0_1_n_n := ⟨rfl, rfl, rfl, rfl, rfl, rfl⟩
private theorem rc_l3 : Cert.Lib.Dot.IsRowsCols dot_S512x16_S16x1_S512x1_1_0_0_1_n_n := ⟨rfl, rfl, rfl, rfl, rfl, rfl⟩

/-- The third call's stored value at row p: the count-matrix block times the table, scaled by the row's factor and
    clipped at zero, then the head's three dense layers (a product, a bias and, for the first two, a clip at zero),
    each product a plain sum over its contracted axis. -/
theorem pay_apply (x0 : Vec Ideal S512x2048 .bf16) (x1 : Vec Ideal S2048x2048 .bf16) (x2 : Vec Ideal S512x1 .f32)
    (x3 : Vec Ideal S2048x64 .f32) (x4 : Vec Ideal S1x64 .f32) (x5 : Vec Ideal S64x16 .f32) (x6 : Vec Ideal S1x16 .f32)
    (x7 : Vec Ideal S16x1 .f32) (x8 : Vec Ideal S1x1 .f32) (p : Fin 512) (u : Fin 1) :
    k2_pay1 (F := Ideal) (k2_pay2 (F := Ideal) x0 x1 x2 x3 x4 x5 x6 x7) x8 (ix2 p u)
      = ((∑ q : Fin 16,
            max ((∑ r : Fin 64,
                max ((∑ s : Fin 2048,
                    max ((∑ t : Fin 2048, x0 (ix2 p t) * x1 (ix2 t s)) * x2 (ix2 p (0 : Fin 1))) 0 * x3 (ix2 s r))
                  + x4 (ix2 (0 : Fin 1) r)) 0 * x5 (ix2 r q))
              + x6 (ix2 (0 : Fin 1) q)) 0 * x7 (ix2 q u))
          + x8 (ix2 (0 : Fin 1) u) : EReal) := by
  unfold k2_pay1 k2_pay2
  -- A cast to the same shape is the identity.
  simp only [shapeCast_self]
  -- Outermost layer first: the last product and its bias, then the two clipped dense layers, then the aggregation.
  simp only [dense_apply _ rc_l3, dense_relu_apply _ rc_l2, dense_relu_apply _ rc_l1, agg_apply _ rc_agg]

end Cert.KI.Pay2

end
-- ==== Proof.KI.Region2.lean ====
/-
  The third call's output array as one function of the arrays it reads.

  The call runs over four grid points. At point t it reads rows 512 t … 512 t + 511 of the count matrix and of the
  per-node scale column, and the whole of every other operand; it stores one 512 × 1 block, which is written back to
  rows 512 t … 512 t + 511 of the output. Each stored entry is the head — scale, clip at zero, three dense layers — of
  the product of the count matrix with the second layer's table, at its own array row. The four blocks are restrictions
  of that one function and tile the 2048 rows, so the array ends holding it.
-/
import proofs.«407745_j8830452760606_3_alg».proof.Proof.Gen.KernelIdeal.Frame
import proofs.«407745_j8830452760606_3_alg».proof.Proof.Spec
import proofs.«407745_j8830452760606_3_alg».proof.Proof.LibDot
import proofs.«407745_j8830452760606_3_alg».proof.Proof.LibRowsCols
import proofs.«407745_j8830452760606_3_alg».proof.Proof.KI.Pay2
import Idealize.ShloMosaic.Lib.Pipeline.Value
import Idealize.ShloMosaic.Lib.ValueLayout

set_option maxRecDepth 16384

noncomputable section

open scoped BigOperators

namespace Cert.KI.Region2

open Cert.KernelIdeal Cert.KernelIdeal.Gen Idealize.ShloMosaic Idealize.ShloMosaic.TcCoe Idealize.SL.Sem
open Idealize.ShloMosaic.ValueIdx
open Idealize.ShloMosaic.Pipeline (Dat)

/-- A whole-buffer access starts at offset zero on both axes. -/
theorem zero_offsets : (![0, 0] : Fin 2 → Nat) = fun _ => 0 := funext fun a => by fin_cases a <;> rfl

/-- One stored entry in terms of the arrays. Suppose row p of the count block is row ρ p of the count matrix A, row p
    of the scale block is row ρ p of the scale column, and every other block is its whole array. Then the entry the body
    stores at (p, u) is the head, applied to the product of A with the table H, at (ρ p, u). -/
theorem stored_entry (A H : Cert.Spec.Mat 2048 2048) (nd : Cert.Spec.Mat 2048 1) (W1 : Cert.Spec.Mat 2048 64)
    (b1 : Cert.Spec.Mat 1 64) (W2 : Cert.Spec.Mat 64 16) (b2 : Cert.Spec.Mat 1 16) (W3 : Cert.Spec.Mat 16 1)
    (b3 : Cert.Spec.Mat 1 1)
    (x0 : Vec Ideal S512x2048 .bf16) (x1 : Vec Ideal S2048x2048 .bf16) (x2 : Vec Ideal S512x1 .f32)
    (x3 : Vec Ideal S2048x64 .f32) (x4 : Vec Ideal S1x64 .f32) (x5 : Vec Ideal S64x16 .f32) (x6 : Vec Ideal S1x16 .f32)
    (x7 : Vec Ideal S16x1 .f32) (x8 : Vec Ideal S1x1 .f32) (ρ : Fin 512 → Fin 2048)
    (h0 : ∀ (p : Fin 512) (k : Fin 2048), x0 (ix2 p k) = A (ix2 (ρ p) k))
    (h1 : ∀ (k s : Fin 2048), x1 (ix2 k s) = H (ix2 k s))
    (h2 : ∀ p : Fin 512, x2 (ix2 p (0 : Fin 1)) = nd (ix2 (ρ p) (0 : Fin 1)))
    (h3 : ∀ (s : Fin 2048) (r : Fin 64), x3 (ix2 s r) = W1 (ix2 s r))
    (h4 : ∀ r : Fin 64, x4 (ix2 (0 : Fin 1) r) = b1 (ix2 (0 : Fin 1) r))
    (h5 : ∀ (r : Fin 64) (q : Fin 16), x5 (ix2 r q) = W2 (ix2 r q))
    (h6 : ∀ q : Fin 16, x6 (ix2 (0 : Fin 1) q) = b2 (ix2 (0 : Fin 1) q))
    (h7 : ∀ (q : Fin 16) (u : Fin 1), x7 (ix2 q u) = W3 (ix2 q u))
    (h8 : ∀ u : Fin 1, x8 (ix2 (0 : Fin 1) u) = b3 (ix2 (0 : Fin 1) u))
    (p : Fin 512) (u : Fin 1) :
    k2_pay1 (F := Ideal) (k2_pay2 (F := Ideal) x0 x1 x2 x3 x4 x5 x6 x7) x8 (ix2 p u)
      = Cert.Spec.head (Cert.Spec.matAgg A H) (fun i => nd (ix2 i (0 : Fin 1))) W1 (fun r => b1 (ix2 (0 : Fin 1) r)) W2
          (fun q => b2 (ix2 (0 : Fin 1) q)) W3 (fun v => b3 (ix2 (0 : Fin 1) v)) (ix2 (ρ p) u) := by
  rw [Cert.KI.Pay2.pay_apply]
  simp only [h0, h1, h2, h3, h4, h5, h6, h7, h8]
  rfl

-- the TensorCore's buffer contents when the region is entered
variable (V : (c : Dev nD) → (b : Ref sig .tc) → Buf (Elt Ideal) ((c : Thread nD τ).loc b))

/-- The array the call leaves: the head applied to the product of the count matrix with the second layer's table. -/
abbrev headOfAgg (c : Dev nD) : Cert.Spec.Mat 2048 1 :=
  Cert.Spec.head (Cert.Spec.matAgg (V c main_v31) (V c main_v36)) (fun i => V c main_v14 (ix2 i (0 : Fin 1)))
    (V c main_arg4) (fun p => V c main_v37 (ix2 (0 : Fin 1) p)) (V c main_arg6) (fun q => V c main_v38 (ix2 (0 : Fin 1) q))
    (V c main_arg8) (fun u => V c main_v39 (ix2 (0 : Fin 1) u))

/-- The windows' index maps over the four grid points: the count block, the scale block and the output block of one point
    start at the same block row, which is at most 3; every other window is its whole array, at block (0, 0). -/
theorem index_maps : ∀ t : Fin cfg2.N,
    win2_0.index t (0 : Fin 2) = win2_9.index t (0 : Fin 2) ∧ win2_0.index t (1 : Fin 2) = 0
    ∧ win2_1.index t (0 : Fin 2) = 0 ∧ win2_1.index t (1 : Fin 2) = 0
    ∧ win2_2.index t (0 : Fin 2) = win2_9.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) ≤ 3 ∧ win2_9.index t (1 : Fin 2) = 0 :=
  (by decide +kernel : ∀ t : Fin grid2.N, _)

/-- Each of the four block rows of the output is some point's. -/
theorem block_rows_onto : ∀ q : Fin 4, ∃ t : Fin cfg2.N, win2_9.index t (0 : Fin 2) = q.val ∧ win2_9.index t (1 : Fin 2) = 0 :=
  (by decide +kernel : ∀ q : Fin 4, ∃ t : Fin grid2.N, win2_9.index t (0 : Fin 2) = q.val ∧ win2_9.index t (1 : Fin 2) = 0)

/-- What point t writes back is block t of the head of the aggregated table: rows 512 t … 512 t + 511. -/
theorem written_back (c : Dev nD) (t : Fin cfg2.N) :
    (dat2 (F := Ideal) V c).flushed 9 t = ((cfg2.win 9).blk t).view.read (Elt Ideal) (headOfAgg V c) := by
  show (cfg2.win 9).cut (grid2.coords t) ((dat2 (F := Ideal) V c).after 9 t) = _
  rw [after2_9]
  unfold out2_9
  rw [View.canon_unit_zero zero_offsets]
  simp only [View.ld_unit_zero (S := S512x2048) zero_offsets, View.ld_unit_zero (S := S2048x2048) zero_offsets,
    View.ld_unit_zero (S := S512x1) zero_offsets, View.ld_unit_zero (S := S2048x64) zero_offsets,
    View.ld_unit_zero (S := S1x64) zero_offsets, View.ld_unit_zero (S := S64x16) zero_offsets,
    View.ld_unit_zero (S := S1x16) zero_offsets, View.ld_unit_zero (S := S16x1) zero_offsets,
    View.ld_unit_zero (S := S1x1) zero_offsets]
  obtain ⟨e00, e01, e10, e11, e20, e21, e30, e31, e40, e41, e50, e51, e60, e61, e70, e71, e80, e81, e9le, e91⟩ := index_maps t
  show (k2_pay1 (F := Ideal) (k2_pay2 (F := Ideal) (iblk2 V c 0 t) (iblk2 V c 1 t) (iblk2 V c 2 t) (iblk2 V c 3 t)
      (iblk2 V c 4 t) (iblk2 V c 5 t) (iblk2 V c 6 t) (iblk2 V c 7 t)) (iblk2 V c 8 t) : S512x1.Idx → EReal)
    = fun j : S512x1.Idx => headOfAgg V c (((cfg2.win 9).blk t).view.emb j)
  funext j
  obtain ⟨p, u, rfl⟩ : ∃ (p : Fin 512) (u : Fin 1), j = ix2 p u := ⟨j 0, j 1, eq_ix2 j⟩
  -- row p of point t's blocks sits at array row 512 t + p
  refine (stored_entry (V c main_v31) (V c main_v36) (V c main_v14) (V c main_arg4) (V c main_v37) (V c main_arg6)
    (V c main_v38) (V c main_arg8) (V c main_v39) (iblk2 V c 0 t) (iblk2 V c 1 t) (iblk2 V c 2 t) (iblk2 V c 3 t)
    (iblk2 V c 4 t) (iblk2 V c 5 t) (iblk2 V c 6 t) (iblk2 V c 7 t) (iblk2 V c 8 t)
    (fun p' : Fin 512 => (⟨win2_9.index t (0 : Fin 2) * 512 + p'.val, by have := p'.isLt; omega⟩ : Fin 2048))
    ?_ ?_ ?_ ?_ ?_ ?_ ?_ ?_ ?_ p u).trans ?_
  · intro p' k
    show V c main_v31 (((cfg2.win 0).blk t).view.emb (ix2 p' k)) = V c main_v31 _
    refine congrArg (V c main_v31) (funext fun a => Fin.ext ?_)
    match a with
    | ⟨0, _⟩ => show win2_0.index t (0 : Fin 2) * 512 + 1 * p'.val = win2_9.index t (0 : Fin 2) * 512 + p'.val; omega
    | ⟨1, _⟩ => show win2_0.index t (1 : Fin 2) * 2048 + 1 * k.val = k.val; omega
  · intro k s
    show V c main_v36 (((cfg2.win 1).blk t).view.emb (ix2 k s)) = V c main_v36 _
    refine congrArg (V c main_v36) (funext fun a => Fin.ext ?_)
    match a with
    | ⟨0, _⟩ => show win2_1.index t (0 : Fin 2) * 2048 + 1 * k.val = k.val; omega
    | ⟨1, _⟩ => show win2_1.index t (1 : Fin 2) * 2048 + 1 * s.val = s.val; omega
  · intro p'
    show V c main_v14 (((cfg2.win 2).blk t).view.emb (ix2 p' (0 : Fin 1))) = V c main_v14 _
    refine congrArg (V c main_v14) (funext fun a => Fin.ext ?_)
    match a with
    | ⟨0, _⟩ => show win2_2.index t (0 : Fin 2) * 512 + 1 * p'.val = win2_9.index t (0 : Fin 2) * 512 + p'.val; omega
    | ⟨1, _⟩ => show win2_2.index t (1 : Fin 2) * 1 + 1 * 0 = 0; omega
  · intro s r
    show V c main_arg4 (((cfg2.win 3).blk t).view.emb (ix2 s r)) = V c main_arg4 _
    refine congrArg (V c main_arg4) (funext fun a => Fin.ext ?_)
    match a with
    | ⟨0, _⟩ => show win2_3.index t (0 : Fin 2) * 2048 + 1 * s.val = s.val; omega
    | ⟨1, _⟩ => show win2_3.index t (1 : Fin 2) * 64 + 1 * r.val = r.val; omega
  · intro r
    show V c main_v37 (((cfg2.win 4).blk t).view.emb (ix2 (0 : Fin 1) r)) = V c main_v37 _
    refine congrArg (V c main_v37) (funext fun a => Fin.ext ?_)
    match a with
    | ⟨0, _⟩ => show win2_4.index t (0 : Fin 2) * 1 + 1 * 0 = 0; omega
    | ⟨1, _⟩ => show win2_4.index t (1 : Fin 2) * 64 + 1 * r.val = r.val; omega
  · intro r q
    show V c main_arg6 (((cfg2.win 5).blk t).view.emb (ix2 r q)) = V c main_arg6 _
    refine congrArg (V c main_arg6) (funext fun a => Fin.ext ?_)
    match a with
    | ⟨0, _⟩ => show win2_5.index t (0 : Fin 2) * 64 + 1 * r.val = r.val; omega
    | ⟨1, _⟩ => show win2_5.index t (1 : Fin 2) * 16 + 1 * q.val = q.val; omega
  · intro q
    show V c main_v38 (((cfg2.win 6).blk t).view.emb (ix2 (0 : Fin 1) q)) = V c main_v38 _
    refine congrArg (V c main_v38) (funext fun a => Fin.ext ?_)
    match a with
    | ⟨0, _⟩ => show win2_6.index t (0 : Fin 2) * 1 + 1 * 0 = 0; omega
    | ⟨1, _⟩ => show win2_6.index t (1 : Fin 2) * 16 + 1 * q.val = q.val; omega
  · intro q v
    show V c main_arg8 (((cfg2.win 7).blk t).view.emb (ix2 q v)) = V c main_arg8 _
    refine congrArg (V c main_arg8) (funext fun a => Fin.ext ?_)
    match a with
    | ⟨0, _⟩ => show win2_7.index t (0 : Fin 2) * 16 + 1 * q.val = q.val; omega
    | ⟨1, _⟩ => show win2_7.index t (1 : Fin 2) * 1 + 1 * v.val = v.val; omega
  · intro v
    show V c main_v39 (((cfg2.win 8).blk t).view.emb (ix2 (0 : Fin 1) v)) = V c main_v39 _
    refine congrArg (V c main_v39) (funext fun a => Fin.ext ?_)
    match a with
    | ⟨0, _⟩ => show win2_8.index t (0 : Fin 2) * 1 + 1 * 0 = 0; omega
    | ⟨1, _⟩ => show win2_8.index t (1 : Fin 2) * 1 + 1 * v.val = v.val; omega
  · -- the output's own rectangle: row 512 t + p, the one column
    refine congrArg (headOfAgg V c) (funext fun a => Fin.ext ?_)
    match a with
    | ⟨0, _⟩ => show win2_9.index t (0 : Fin 2) * 512 + p.val = win2_9.index t (0 : Fin 2) * 512 + 1 * p.val; omega
    | ⟨1, _⟩ => show u.val = win2_9.index t (1 : Fin 2) * 1 + 1 * u.val; omega

/-- An index of the output array lies in point t's block iff each coordinate lies in the block's range on its axis. -/
theorem mem_block (t : Fin cfg2.N) (i : S2048x1.Idx) :
    i ∈ ((cfg2.win 9).blk t).view.set
      ↔ ∀ a : Fin 2, win2_9.index t a * S512x1.size a ≤ (i a).val ∧ (i a).val < win2_9.index t a * S512x1.size a + S512x1.size a := by
  show i ∈ ((View.whole main_v40).slice (win2_9.rect t)).set ↔ _
  rw [View.set_slice_whole, Rect.mem_set_unit]
  exact Iff.rfl

/-- The four blocks cover the array: row r lies in the block of the point whose block row is r / 512. -/
theorem covered (i : S2048x1.Idx) :
    ∃ t : Fin cfg2.N, (cfg2.win 9).flush t = true ∧ i ∈ ((cfg2.win 9).blk t).view.set := by
  have hi0 : (i 0).val < 2048 := (i 0).isLt
  have hi1 : (i 1).val < 1 := (i 1).isLt
  obtain ⟨t, ht0, ht1⟩ := block_rows_onto ⟨(i 0).val / 512, by omega⟩
  have q0 : win2_9.index t (0 : Fin 2) = (i 0).val / 512 := ht0
  refine ⟨t, flush2_9 t, ?_⟩
  rw [mem_block]
  intro a
  match a with
  | ⟨0, _⟩ =>
    show win2_9.index t (0 : Fin 2) * 512 ≤ (i 0).val ∧ (i 0).val < win2_9.index t (0 : Fin 2) * 512 + 512
    omega
  | ⟨1, _⟩ =>
    show win2_9.index t (1 : Fin 2) * 1 ≤ (i 1).val ∧ (i 1).val < win2_9.index t (1 : Fin 2) * 1 + 1
    omega

/-- After the third call, its output array is the head applied to the product of the count matrix with the second
    layer's table, as one function of the arrays the call reads. -/
theorem final2 (c : Dev nD) :
    (dat2 (F := Ideal) V c).arrAt 9 cfg2.N
      = Cert.Spec.head (Cert.Spec.matAgg (V c main_v31) (V c main_v36)) (fun i => V c main_v14 (ix2 i (0 : Fin 1)))
          (V c main_arg4) (fun p => V c main_v37 (ix2 (0 : Fin 1) p)) (V c main_arg6) (fun q => V c main_v38 (ix2 (0 : Fin 1) q))
          (V c main_arg8) (fun u => V c main_v39 (ix2 (0 : Fin 1) u)) :=
  (dat2 (F := Ideal) V c).arrAt_eq_of_cover 9 (headOfAgg V c) (fun t _ => written_back V c t) covered

end Cert.KI.Region2

end
-- ==== Proof.KI.HostDefs.lean ====
import proofs.«407745_j8830452760606_3_alg».proof.KernelIdeal
import proofs.«407745_j8830452760606_3_alg».proof.Proof.Gen.KernelIdeal
import Idealize.ShloMosaic.PureOps.Ideal

noncomputable section

namespace Cert.KI.Host

open Cert.KernelIdeal Cert.KernelIdeal.Facts₀ Cert.KernelIdeal.Facts Idealize.ShloMosaic

/-- The per-node factor of the kernel's host part: the degree counted by a scatter-add of ones at the index words,
    clipped below at one, to the power −1/2, as a column. -/
def normK (x : IVec S65536 32) : FVec Ideal S2048x1 .f32 :=
  broadcastInDim S2048x1 ![0] bcast_S2048_S2048x1_0
    (Host.powf
      (maximumf (broadcastInDim S2048 ![] bcast_S_S2048 (id (constant S_ .f32 0x3F800000#32)))
        (Host.scatterAdd scatter_S2048_S65536x1_S65536_n_0_0_1 (broadcastInDim S2048 ![] bcast_S_S2048 (constant S_ .f32 0x00000000#32))
          (broadcastInDim S65536x1 ![0] bcast_S65536_S65536x1_0 x)
          (broadcastInDim S65536 ![] bcast_S_S65536 (constant S_ .f32 0x3F800000#32))))
      (broadcastInDim S2048 ![] bcast_S_S2048 (constant S_ .f32 0xBF000000#32)))

/-- The features with each row scaled by its node's source factor. -/
def hsK (x0 : FVec Ideal S2048x64 .f32) (x10 : IVec S65536 32) : FVec Ideal S2048x64 .f32 :=
  mulf x0 (broadcastInDim S2048x64 ![0, 1] bcast_S2048x1_S2048x64_0_1 (normK x10))

/-- An index word with 2048 added when it is negative. -/
def wrapK (x : IVec S65536 32) : IVec S65536 32 :=
  select (cmpi .slt x (broadcastInDim S65536 ![] bcast_S_S65536 (constantI S_ 32 0#32)))
    (addi x (broadcastInDim S65536 ![] bcast_S_S65536 (constantI S_ 32 2048#32))) x

/-- The count matrix of the kernel's host part: ones scatter-added into a zero matrix at the (wrapped) pairs
    (dst, src), then narrowed. -/
def adjK (x10 x11 : IVec S65536 32) : FVec Ideal S2048x2048 .bf16 :=
  truncf .bf16
    (Host.scatterAdd scatter_S2048x2048_S65536x2_S65536_n_01_01_1
      (broadcastInDim S2048x2048 ![] bcast_S_S2048x2048 (constant S_ .f32 0x00000000#32))
      (concatenate S65536x2 1 [⟨S65536x1, broadcastInDim S65536x1 ![0] bcast_S65536_S65536x1_0 (wrapK x11)⟩,
        ⟨S65536x1, broadcastInDim S65536x1 ![0] bcast_S65536_S65536x1_0 (wrapK x10)⟩] concatenates_S65536x1_S65536x1_S65536x2_d1)
      (broadcastInDim S65536 ![] bcast_S_S65536 (constant S_ .f32 0x3F800000#32)))
    bitsLt_bf16_f32

end Cert.KI.Host

end
-- ==== Proof.KI.Host.lean ====
import proofs.«407745_j8830452760606_3_alg».proof.Proof.KI.Region0
import proofs.«407745_j8830452760606_3_alg».proof.Proof.KI.Region1
import proofs.«407745_j8830452760606_3_alg».proof.Proof.KI.Region2
import proofs.«407745_j8830452760606_3_alg».proof.Proof.KI.HostDefs
import Idealize.ShloMosaic.Lib.StableHlo.Run

set_option maxRecDepth 16384

noncomputable section

open scoped BigOperators

namespace Cert.KI.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- Two columns of 65536 entries side by side. -/
private def cols2 {α : Type} (a b : S65536x1.Idx → α) : S65536x2.Idx → α :=
  concatenate S65536x2 1 [⟨S65536x1, a⟩, ⟨S65536x1, b⟩] concatenates_S65536x1_S65536x1_S65536x2_d1

private theorem cols2_eq {α : Type} (a b : S65536x1.Idx → α) :
    concatenate S65536x2 1 [⟨S65536x1, a⟩, ⟨S65536x1, b⟩] concatenates_S65536x1_S65536x1_S65536x2_d1 = cols2 a b := rfl

open StableHlo in
/-- One pass over a line of host operations: each operation's result at its own buffer is its function's value,
    at another buffer what was there; two columns set side by side are named, so that the pass goes on inside them. -/
local macro "host_reads" : tactic =>
  `(tactic| (simp (disch := decide) only [after_cons, after_nil,
      nullary_result', unary_result', binary_result', ternary_result', reshape_result',
      nullary_result_ne', unary_result_ne', binary_result_ne', ternary_result_ne', reshape_result_ne', cols2_eq]))

/-! ### The first call's entry: the host operations' arrays as terms of the arguments -/

/-- The source-side factor column. -/
theorem W5_v11 (c : Dev nD) :
    W5 m ρ c (Proc.devRef .tc main_v11) = normK (m ((c : Thread nD τ).loc main_arg10)) := by
  show StableHlo.after hostOps0_4 _ (Proc.devRef .tc main_v11) = _
  host_reads
  rfl

/-- The destination-side factor column. -/
theorem W5_v14 (c : Dev nD) :
    W5 m ρ c (Proc.devRef .tc main_v14) = normK (m ((c : Thread nD τ).loc main_arg11)) := by
  show StableHlo.after hostOps0_4 _ (Proc.devRef .tc main_v14) = _
  host_reads
  rfl

/-- The count matrix. -/
theorem W5_v31 (c : Dev nD) :
    W5 m ρ c (Proc.devRef .tc main_v31)
      = adjK (m ((c : Thread nD τ).loc main_arg10)) (m ((c : Thread nD τ).loc main_arg11)) := by
  show StableHlo.after hostOps0_4 _ (Proc.devRef .tc main_v31) = _
  host_reads
  rfl

/-- The scaled features. -/
theorem W5_v33 (c : Dev nD) :
    W5 m ρ c (Proc.devRef .tc main_v33)
      = hsK (m ((c : Thread nD τ).loc main_arg0)) (m ((c : Thread nD τ).loc main_arg10)) := by
  show StableHlo.after hostOps0_4 _ (Proc.devRef .tc main_v33) = _
  host_reads
  rfl

/-- The first bias as a row: entry (0, j) is the argument's entry j. -/
theorem W5_v34 (c : Dev nD) (j : Fin 4096) :
    W5 m ρ c (Proc.devRef .tc main_v34) (ix2 (0 : Fin 1) j) = m ((c : Thread nD τ).loc main_arg3) (ix1 j) := by
  have e : W5 m ρ c (Proc.devRef .tc main_v34)
      = shapeCast S1x4096 (m ((c : Thread nD τ).loc main_arg3)) shapeCasts_S4096_S1x4096 := by
    show StableHlo.after hostOps0_4 _ (Proc.devRef .tc main_v34) = _
    host_reads
    rfl
  rw [e]
  exact shapeCast_a_1a_apply _ _ _ _

/-! An argument's array no host operation writes: at the first call's entry it is the launch memory's. -/

theorem W5_arg1 (c : Dev nD) : W5 m ρ c (Proc.devRef .tc main_arg1) = m ((c : Thread nD τ).loc main_arg1) := by
  show StableHlo.after hostOps0_4 _ (Proc.devRef .tc main_arg1) = _
  host_reads

theorem W5_arg2 (c : Dev nD) : W5 m ρ c (Proc.devRef .tc main_arg2) = m ((c : Thread nD τ).loc main_arg2) := by
  show StableHlo.after hostOps0_4 _ (Proc.devRef .tc main_arg2) = _
  host_reads

theorem W5_arg4 (c : Dev nD) : W5 m ρ c (Proc.devRef .tc main_arg4) = m ((c : Thread nD τ).loc main_arg4) := by
  show StableHlo.after hostOps0_4 _ (Proc.devRef .tc main_arg4) = _
  host_reads

theorem W5_arg5 (c : Dev nD) : W5 m ρ c (Proc.devRef .tc main_arg5) = m ((c : Thread nD τ).loc main_arg5) := by
  show StableHlo.after hostOps0_4 _ (Proc.devRef .tc main_arg5) = _
  host_reads

theorem W5_arg6 (c : Dev nD) : W5 m ρ c (Proc.devRef .tc main_arg6) = m ((c : Thread nD τ).loc main_arg6) := by
  show StableHlo.after hostOps0_4 _ (Proc.devRef .tc main_arg6) = _
  host_reads

theorem W5_arg7 (c : Dev nD) : W5 m ρ c (Proc.devRef .tc main_arg7) = m ((c : Thread nD τ).loc main_arg7) := by
  show StableHlo.after hostOps0_4 _ (Proc.devRef .tc main_arg7) = _
  host_reads

theorem W5_arg8 (c : Dev nD) : W5 m ρ c (Proc.devRef .tc main_arg8) = m ((c : Thread nD τ).loc main_arg8) := by
  show StableHlo.after hostOps0_4 _ (Proc.devRef .tc main_arg8) = _
  host_reads

theorem W5_arg9 (c : Dev nD) : W5 m ρ c (Proc.devRef .tc main_arg9) = m ((c : Thread nD τ).loc main_arg9) := by
  show StableHlo.after hostOps0_4 _ (Proc.devRef .tc main_arg9) = _
  host_reads

/-! ### Through the calls: a call leaves every buffer that is none of its arrays, and its input arrays, as it found them -/

/-- A buffer that is an array of neither of the first two calls is, after them, as at the first call's entry. -/
theorem W7_of_ne_both (c : Dev nD) (b : Ref sig .tc) (h0 : ∀ w, Pipeline.arrRef spec0 w ≠ b)
    (h1 : ∀ w, Pipeline.arrRef spec1 w ≠ b) :
    W7 m ρ c (Proc.devRef .tc b) = W5 m ρ c (Proc.devRef .tc b) :=
  (W7_of_ne m ρ c b h1).trans (W6_of_ne m ρ c b h0)

/-- The count matrix is an input array of the first call and no array of the second. -/
theorem W7_v31 (c : Dev nD) :
    W7 m ρ c (Proc.devRef .tc main_v31)
      = adjK (m ((c : Thread nD τ).loc main_arg10)) (m ((c : Thread nD τ).loc main_arg11)) :=
  (W7_of_ne m ρ c main_v31 (by decide)).trans
    (((W6_arr m ρ c 0).trans (((dat0 (V5 m ρ) c).arrAt_in 0 rfl _).trans (A_eq0 (V5 m ρ) c 0))).trans (W5_v31 m ρ c))

/-- So is the destination-side factor column. -/
theorem W7_v14 (c : Dev nD) :
    W7 m ρ c (Proc.devRef .tc main_v14) = normK (m ((c : Thread nD τ).loc main_arg11)) :=
  (W7_of_ne m ρ c main_v14 (by decide)).trans
    (((W6_arr m ρ c 2).trans (((dat0 (V5 m ρ) c).arrAt_in 2 rfl _).trans (A_eq0 (V5 m ρ) c 2))).trans (W5_v14 m ρ c))

/-! ### The third call's entry -/

theorem V8_v31 (c : Dev nD) :
    V8 m ρ c main_v31 = adjK (m ((c : Thread nD τ).loc main_arg10)) (m ((c : Thread nD τ).loc main_arg11)) := by
  show StableHlo.after hostOps2 _ (Proc.devRef .tc main_v31) = _
  host_reads
  exact W7_v31 m ρ c

theorem V8_v14 (c : Dev nD) : V8 m ρ c main_v14 = normK (m ((c : Thread nD τ).loc main_arg11)) := by
  show StableHlo.after hostOps2 _ (Proc.devRef .tc main_v14) = _
  host_reads
  exact W7_v14 m ρ c

theorem V8_v36 (c : Dev nD) : V8 m ρ c main_v36 = (dat1 (V6 m ρ) c).arrAt 3 cfg1.N := by
  show StableHlo.after hostOps2 _ (Proc.devRef .tc main_v36) = _
  host_reads
  exact W7_arr m ρ c 3

theorem V8_arg4 (c : Dev nD) : V8 m ρ c main_arg4 = m ((c : Thread nD τ).loc main_arg4) := by
  show StableHlo.after hostOps2 _ (Proc.devRef .tc main_arg4) = _
  host_reads
  exact (W7_of_ne_both m ρ c main_arg4 (by decide) (by decide)).trans (W5_arg4 m ρ c)

theorem V8_arg6 (c : Dev nD) : V8 m ρ c main_arg6 = m ((c : Thread nD τ).loc main_arg6) := by
  show StableHlo.after hostOps2 _ (Proc.devRef .tc main_arg6) = _
  host_reads
  exact (W7_of_ne_both m ρ c main_arg6 (by decide) (by decide)).trans (W5_arg6 m ρ c)

theorem V8_arg8 (c : Dev nD) : V8 m ρ c main_arg8 = m ((c : Thread nD τ).loc main_arg8) := by
  show StableHlo.after hostOps2 _ (Proc.devRef .tc main_arg8) = _
  host_reads
  exact (W7_of_ne_both m ρ c main_arg8 (by decide) (by decide)).trans (W5_arg8 m ρ c)

/-- The head's biases as rows: entry (0, p) is the argument's entry p. -/
theorem V8_v37 (c : Dev nD) (p : Fin 64) :
    V8 m ρ c main_v37 (ix2 (0 : Fin 1) p) = m ((c : Thread nD τ).loc main_arg5) (ix1 p) := by
  have e : V8 m ρ c main_v37
      = shapeCast S1x64 (m ((c : Thread nD τ).loc main_arg5)) shapeCasts_S64_S1x64 := by
    show StableHlo.after hostOps2 _ (Proc.devRef .tc main_v37) = _
    host_reads
    rw [(W7_of_ne_both m ρ c main_arg5 (by decide) (by decide)).trans (W5_arg5 m ρ c)]
    rfl
  rw [e]
  exact shapeCast_a_1a_apply _ _ _ _

theorem V8_v38 (c : Dev nD) (q : Fin 16) :
    V8 m ρ c main_v38 (ix2 (0 : Fin 1) q) = m ((c : Thread nD τ).loc main_arg7) (ix1 q) := by
  have e : V8 m ρ c main_v38
      = shapeCast S1x16 (m ((c : Thread nD τ).loc main_arg7)) shapeCasts_S16_S1x16 := by
    show StableHlo.after hostOps2 _ (Proc.devRef .tc main_v38) = _
    host_reads
    rw [(W7_of_ne_both m ρ c main_arg7 (by decide) (by decide)).trans (W5_arg7 m ρ c)]
    rfl
  rw [e]
  exact shapeCast_a_1a_apply _ _ _ _

theorem V8_v39 (c : Dev nD) (u : Fin 1) :
    V8 m ρ c main_v39 (ix2 (0 : Fin 1) u) = m ((c : Thread nD τ).loc main_arg9) (ix1 u) := by
  have e : V8 m ρ c main_v39
      = shapeCast S1x1 (m ((c : Thread nD τ).loc main_arg9)) shapeCasts_S1_S1x1 := by
    show StableHlo.after hostOps2 _ (Proc.devRef .tc main_v39) = _
    host_reads
    rw [(W7_of_ne_both m ρ c main_arg9 (by decide) (by decide)).trans (W5_arg9 m ρ c)]
    rfl
  rw [e]
  exact shapeCast_a_1a_apply _ _ _ _

/-! ### The three calls' outputs, each as one function of the arguments -/

/-- The first call's output. -/
theorem V6_v35 (c : Dev nD) :
    V6 m ρ c main_v35
      = Cert.Spec.dense1
          (Cert.Spec.matAgg (adjK (m ((c : Thread nD τ).loc main_arg10)) (m ((c : Thread nD τ).loc main_arg11)))
            (hsK (m ((c : Thread nD τ).loc main_arg0)) (m ((c : Thread nD τ).loc main_arg10))))
          (fun i => normK (m ((c : Thread nD τ).loc main_arg11)) (ix2 i (0 : Fin 1)))
          (m ((c : Thread nD τ).loc main_arg2))
          (fun j => m ((c : Thread nD τ).loc main_arg3) (ix1 j)) := by
  refine ((W6_arr m ρ c 5).trans (Cert.KI.Region0.final0 (V5 m ρ) c)).trans ?_
  have e31 : V5 m ρ c main_v31 = _ := W5_v31 m ρ c
  have e33 : V5 m ρ c main_v33 = _ := W5_v33 m ρ c
  have e14 : V5 m ρ c main_v14 = _ := W5_v14 m ρ c
  have e2 : V5 m ρ c main_arg2 = _ := W5_arg2 m ρ c
  have e34 : (fun j => V5 m ρ c main_v34 (ix2 (0 : Fin 1) j)) = fun j => m ((c : Thread nD τ).loc main_arg3) (ix1 j) :=
    funext (W5_v34 m ρ c)
  rw [e31, e33, e14, e2, e34]

/-- The second call's output. -/
theorem V8_v36_eq (c : Dev nD) :
    V8 m ρ c main_v36
      = Cert.Spec.mm1
          (Cert.Spec.dense1
            (Cert.Spec.matAgg (adjK (m ((c : Thread nD τ).loc main_arg10)) (m ((c : Thread nD τ).loc main_arg11)))
              (hsK (m ((c : Thread nD τ).loc main_arg0)) (m ((c : Thread nD τ).loc main_arg10))))
            (fun i => normK (m ((c : Thread nD τ).loc main_arg11)) (ix2 i (0 : Fin 1)))
            (m ((c : Thread nD τ).loc main_arg2))
            (fun j => m ((c : Thread nD τ).loc main_arg3) (ix1 j)))
          (m ((c : Thread nD τ).loc main_arg1))
          (fun i => normK (m ((c : Thread nD τ).loc main_arg10)) (ix2 i (0 : Fin 1))) := by
  refine ((V8_v36 m ρ c).trans (Cert.KI.Region1.final1 (V6 m ρ) c)).trans ?_
  have e1 : V6 m ρ c main_arg1 = m ((c : Thread nD τ).loc main_arg1) :=
    (W6_of_ne m ρ c main_arg1 (by decide)).trans (W5_arg1 m ρ c)
  have e11 : V6 m ρ c main_v11 = normK (m ((c : Thread nD τ).loc main_arg10)) :=
    (W6_of_ne m ρ c main_v11 (by decide)).trans (W5_v11 m ρ c)
  rw [V6_v35 m ρ c, e1, e11]

/-- The kernel's result buffer at the last boundary of its run, as one function of the argument arrays: the three
    calls' arrays threaded through the boundaries, the host operations between them read back. -/
theorem result_eq (c : Dev nD) :
    W9 m ρ c (Proc.devRef .tc main_v40)
      = Cert.Spec.kernelOut
          (adjK (m ((c : Thread nD τ).loc main_arg10)) (m ((c : Thread nD τ).loc main_arg11)))
          (hsK (m ((c : Thread nD τ).loc main_arg0)) (m ((c : Thread nD τ).loc main_arg10)))
          (fun i => normK (m ((c : Thread nD τ).loc main_arg11)) (ix2 i (0 : Fin 1)))
          (fun i => normK (m ((c : Thread nD τ).loc main_arg10)) (ix2 i (0 : Fin 1)))
          (m ((c : Thread nD τ).loc main_arg2))
          (fun j => m ((c : Thread nD τ).loc main_arg3) (ix1 j))
          (m ((c : Thread nD τ).loc main_arg1))
          (m ((c : Thread nD τ).loc main_arg4))
          (fun p => m ((c : Thread nD τ).loc main_arg5) (ix1 p))
          (m ((c : Thread nD τ).loc main_arg6))
          (fun q => m ((c : Thread nD τ).loc main_arg7) (ix1 q))
          (m ((c : Thread nD τ).loc main_arg8))
          (fun u => m ((c : Thread nD τ).loc main_arg9) (ix1 u)) := by
  refine ((W9_arr m ρ c 9).trans (Cert.KI.Region2.final2 (V8 m ρ) c)).trans ?_
  have e37 : (fun p => V8 m ρ c main_v37 (ix2 (0 : Fin 1) p)) = fun p => m ((c : Thread nD τ).loc main_arg5) (ix1 p) :=
    funext (V8_v37 m ρ c)
  have e38 : (fun q => V8 m ρ c main_v38 (ix2 (0 : Fin 1) q)) = fun q => m ((c : Thread nD τ).loc main_arg7) (ix1 q) :=
    funext (V8_v38 m ρ c)
  have e39 : (fun u => V8 m ρ c main_v39 (ix2 (0 : Fin 1) u)) = fun u => m ((c : Thread nD τ).loc main_arg9) (ix1 u) :=
    funext (V8_v39 m ρ c)
  rw [V8_v31 m ρ c, V8_v36_eq m ρ c, V8_v14 m ρ c, V8_arg4 m ρ c, V8_arg6 m ρ c, V8_arg8 m ρ c, e37, e38, e39]
  rfl

end Cert.KI.Host

end
-- ==== Proof.LibScatter.lean ====
/-
  A host scatter-add read at one element, at the exact (extended-real) instance, for the two layouts of a
  segment sum: one number per edge added into a vector at the edge's index word, and one row per edge added into
  a table at the row its index word names. An index word outside the operand (read signed, not clipped) drops
  its update. And a host maximum over the rows of a table, read at a column, as the supremum over the rows.
-/
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.Pipeline.Value

noncomputable section

open scoped BigOperators

namespace Cert.LibScatter

open Idealize.ShloMosaic Idealize.ShloMosaic.ValueIdx

/-- An update lands on element `i` exactly when, on every operand axis, its window start plus its window
    coordinate is that axis's coordinate of `i`. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := Option.some.inj e
      have e2 := congrArg (fun f : s.Idx => (f a).val) e'
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-! ## The vector layout: one number per edge -/

/-- On the vector's one axis an update's window starts at its edge's index word, read signed. -/
private theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ix2 (j 0) (0 : Fin 1))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
private theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- The vector scatter-add at element `c`: the operand's element plus the updates of the edges whose index
    word, read signed, is `c`. -/
theorem scatterAdd_vec_read {C n : Nat} {φ : FTy} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → EReal) (idx : IVec ⟨2, ![n, 1]⟩ 32) (upd : (⟨1, ![n]⟩ : Shape).Idx → EReal) (c : Fin C) :
    Host.scatterAdd (F := Ideal) (φ := φ) d x idx upd (ix1 c)
      = x (ix1 c) + ∑ e ∈ Finset.univ.filter (fun e : Fin n => (idx (ix2 e (0 : Fin 1))).toInt = (c.val : ℤ)),
          upd (ix1 e) := by
  have key : ∀ j : (⟨1, ![n]⟩ : Shape).Idx,
      d.resultIdx? j idx = some (ix1 c) ↔ (idx (ix2 (j 0) (0 : Fin 1))).toInt = (c.val : ℤ) := by
    intro j
    rw [resultIdx?_eq_some_iff]
    constructor
    · intro e
      have e0 : d.start j idx 0 + (d.window j 0 : ℤ) = (c.val : ℤ) := e 0
      rw [vec_start d h1 h2 h3 h4, vec_window d h1 h2 h3 h4] at e0
      simpa using e0
    · intro e a
      have ea : d.start j idx a + (d.window j a : ℤ) = (c.val : ℤ) := by
        rw [vec_start d h1 h2 h3 h4, vec_window d h1 h2 h3 h4]
        simpa using e
      match a with
      | ⟨0, _⟩ => exact ea
  show Ideal.hostScatterAdd d x idx upd (ix1 c) = _
  unfold Ideal.hostScatterAdd
  congr 1
  refine Finset.sum_nbij' (fun j : (⟨1, ![n]⟩ : Shape).Idx => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _; exact (eq_ix1 j).symm
  · intro e _; rfl
  · intro j _; exact congrArg upd (eq_ix1 j)

/-! ## The table layout: one row per edge -/

/-- On the table's row axis an update's window starts at its edge's index word, read signed. -/
private theorem rows_start0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_singleton.2 rfl) ha

/-- The table's column axis is not a scattered one: the window starts at zero there. -/
private theorem rows_start1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 1 = 0 := by
  obtain ⟨uw, iw, sd, iv, wf⟩ := d
  dsimp only at h1 h2 h3 h4
  subst h1 h2 h3 h4
  unfold ScatterDims.start
  split_ifs with ha
  · exact absurd (congrArg Fin.val (List.mem_singleton.1 ha)) Nat.one_ne_zero
  · rfl

/-- The table's row axis is an inserted one: the window coordinate there is zero. -/
private theorem rows_window0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 0 = 0 := by
  obtain ⟨uw, iw, sd, iv, wf⟩ := d
  dsimp only at h1 h2 h3 h4
  subst h1 h2 h3 h4
  unfold ScatterDims.window
  split_ifs with ha
  · exact absurd (show (0 : Fin 2) ∈ ([1] : List (Fin 2)) from ha) (by decide)
  · rfl

/-- On the table's column axis the window coordinate is the update's column. -/
private theorem rows_window1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 1 = (j 1).val := by
  obtain ⟨uw, iw, sd, iv, wf⟩ := d
  dsimp only at h1 h2 h3 h4
  subst h1 h2 h3 h4
  unfold ScatterDims.window
  split_ifs with ha
  · rfl
  · exact absurd (show (1 : Fin 2) ∈ ([1] : List (Fin 2)) from List.mem_singleton.2 rfl) ha

/-- The row scatter-add at element `(c, k)`: the operand's element plus the updates `(e, k)` of the edges `e`
    whose index word, read signed, is `c`. -/
theorem scatterAdd_rows_read {C D n : Nat} {φ : FTy} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1)
    (x : (⟨2, ![C, D]⟩ : Shape).Idx → EReal) (idx : IVec ⟨2, ![n, 1]⟩ 32) (upd : (⟨2, ![n, D]⟩ : Shape).Idx → EReal)
    (c : Fin C) (k : Fin D) :
    Host.scatterAdd (F := Ideal) (φ := φ) d x idx upd (ix2 c k)
      = x (ix2 c k) + ∑ e ∈ Finset.univ.filter (fun e : Fin n => (idx (ix2 e (0 : Fin 1))).toInt = (c.val : ℤ)),
          upd (ix2 e k) := by
  have key : ∀ j : (⟨2, ![n, D]⟩ : Shape).Idx,
      d.resultIdx? j idx = some (ix2 c k)
        ↔ ((idx (ix2 (j 0) (0 : Fin 1))).toInt = (c.val : ℤ) ∧ (j 1).val = k.val) := by
    intro j
    rw [resultIdx?_eq_some_iff]
    constructor
    · intro e
      have e0 : d.start j idx 0 + (d.window j 0 : ℤ) = (c.val : ℤ) := e 0
      have e1 : d.start j idx 1 + (d.window j 1 : ℤ) = (k.val : ℤ) := e 1
      rw [rows_start0 d h1 h2 h3 h4, rows_window0 d h1 h2 h3 h4] at e0
      rw [rows_start1 d h1 h2 h3 h4, rows_window1 d h1 h2 h3 h4] at e1
      refine ⟨by simpa using e0, ?_⟩
      omega
    · rintro ⟨e0, e1⟩ a
      match a with
      | ⟨0, _⟩ =>
        show d.start j idx 0 + (d.window j 0 : ℤ) = (c.val : ℤ)
        rw [rows_start0 d h1 h2 h3 h4, rows_window0 d h1 h2 h3 h4]
        simpa using e0
      | ⟨1, _⟩ =>
        show d.start j idx 1 + (d.window j 1 : ℤ) = (k.val : ℤ)
        rw [rows_start1 d h1 h2 h3 h4, rows_window1 d h1 h2 h3 h4]
        omega
  have back : ∀ j : (⟨2, ![n, D]⟩ : Shape).Idx, (j 1).val = k.val → ix2 (j 0 : Fin n) k = j := by
    intro j hk
    funext a
    match a with
    | ⟨0, _⟩ => rfl
    | ⟨1, _⟩ => exact Fin.ext hk.symm
  show Ideal.hostScatterAdd d x idx upd (ix2 c k) = _
  unfold Ideal.hostScatterAdd
  congr 1
  refine Finset.sum_nbij' (fun j : (⟨2, ![n, D]⟩ : Shape).Idx => (j 0 : Fin n)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    exact back j ((key j).1 (Finset.mem_filter.1 hj).2).2
  · intro e _; rfl
  · intro j hj
    exact congrArg upd (back j ((key j).1 (Finset.mem_filter.1 hj).2).2).symm

/-! ## The maximum over the rows -/

/-- The column index `c` with row `k` put back is `(k, c)`. -/
private theorem lift_rows {R C : Nat} (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The host's maximum over the rows of a table, started at −∞, read at column `c`: the supremum over the rows. -/
theorem reduce_max_rows {R C : Nat} (x : (⟨2, ![R, C]⟩ : Shape).Idx → EReal) (init : (⟨0, ![]⟩ : Shape).Idx → EReal)
    (hinit : ∀ i, init i = ⊥) (h : (⟨2, ![R, C]⟩ : Shape).ReducesTo [0] ⟨1, ![C]⟩) (hu : 0 < (⟨0, ![]⟩ : Shape).numel)
    (c : Fin C) :
    Host.reduce (FloatOps.maximumf (F := Ideal) (φ := .f32)) x init h hu (ix1 c)
      = Finset.univ.sup fun r : Fin R => x (ix2 r c) := by
  -- the rank-one result has an axis, so the reduction is one the single-axis fold law covers
  have hr : (⟨2, ![R, C]⟩ : Shape).Reduces [0] ⟨1, ![C]⟩ := ⟨h.1, Nat.one_pos, h.2⟩
  rw [Host.reduce_eq_fold_single (FloatOps.maximumf (F := Ideal) (φ := .f32)) x init h hr hu, hinit]
  have hf : (x ∘ hr.lift (ix1 c)) = fun r : Fin R => x (ix2 r c) := funext fun k => congrArg x (lift_rows hr c k)
  rw [hf]
  -- a supremum over a finite set is by definition the fold of the binary supremum from the bottom element
  rfl

end Cert.LibScatter

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.RefSide.lean ====
import proofs.«407745_j8830452760606_3_alg».proof.Defs
import proofs.«407745_j8830452760606_3_alg».proof.Proof.Gen.ReferenceIdeal.Run
import proofs.«407745_j8830452760606_3_alg».proof.Proof.Gen.ReferenceIdeal.Read
import proofs.«407745_j8830452760606_3_alg».proof.Proof.Spec
import proofs.«407745_j8830452760606_3_alg».proof.Proof.LibScatter
import proofs.«407745_j8830452760606_3_alg».proof.Proof.LibGatherRows

set_option maxRecDepth 16384

noncomputable section

open scoped BigOperators

namespace Cert.RefSide

open Cert.ReferenceIdeal Cert.ReferenceIdeal.Gen Cert.ReferenceIdeal.Value Cert.ReferenceIdeal.Read Idealize.ShloMosaic Idealize.ShloMosaic.TcCoe Idealize.SL.Sem
open Idealize.ShloMosaic.ValueIdx

/-! ## Index words -/

/-- A word that reads, signed, as a natural number is not below zero: the wrap of negative words keeps it. -/
private theorem wrap_word (w a : BitVec 32) (n : ℕ) (hw : w.toInt = (n : ℤ)) :
    Scalar.select (IntOp.cmpi .slt w 0#32) a w = w := by
  have h : IntOp.cmpi .slt w 0#32 = 0#1 := by
    unfold IntOp.cmpi
    have hs : w.slt 0#32 = false := by
      rw [BitVec.slt, hw]; simp
    rw [hs]; rfl
  rw [h]; exact select_zero _ _

/-- A word that reads as a node is its own clipped position among 2048 rows. -/
private theorem clip_word (w : BitVec 32) (s : Fin 2048) (hw : w.toInt = (s.val : ℤ)) :
    min w.toInt.toNat (2048 - 1) = s.val := by
  rw [hw, Int.toNat_natCast]; have := s.isLt; omega

/-- The wrapped source word of edge e (first gather) is the source word itself. -/
private theorem word22 (x10 : IVec S65536 32) (src : Fin 65536 → Fin 2048)
    (hsrc : ∀ e : Fin 65536, (x10 (ix1 e)).toInt = ((src e).val : ℤ)) (e : Fin 65536) :
    val_main_v22 (F := Ideal) x10 (ix2 e (0 : Fin 1)) = x10 (ix1 e) := by
  have hi : idx_main_v22 (ix2 e (0 : Fin 1)) = ix1 e := funext fun a => Fin.ext (by match a with | ⟨0, _⟩ => rfl)
  rw [val_main_v22_apply, hi, val_main_v21_apply, val_main_v18_apply, val_main_v17_apply, val_main_c_apply]
  exact wrap_word _ _ _ (hsrc e)

/-- The wrapped source word of edge e (second gather) is the source word itself. -/
private theorem word42 (x10 : IVec S65536 32) (src : Fin 65536 → Fin 2048)
    (hsrc : ∀ e : Fin 65536, (x10 (ix1 e)).toInt = ((src e).val : ℤ)) (e : Fin 65536) :
    val_main_v42 (F := Ideal) x10 (ix2 e (0 : Fin 1)) = x10 (ix1 e) := by
  have hi : idx_main_v42 (ix2 e (0 : Fin 1)) = ix1 e := funext fun a => Fin.ext (by match a with | ⟨0, _⟩ => rfl)
  rw [val_main_v42_apply, hi, val_main_v41_apply, val_main_v38_apply, val_main_v37_apply, val_main_c_8_apply]
  exact wrap_word _ _ _ (hsrc e)

/-- The destination-side factor of node i. -/
private abbrev nd (x11 : IVec S65536 32) : Fin 2048 → EReal := fun i => val_main_v14 (F := Ideal) x11 (ix2 i (0 : Fin 1))
/-- The source-side factor of node i. -/
private abbrev ns (x10 : IVec S65536 32) : Fin 2048 → EReal := fun i => val_main_v11 (F := Ideal) x10 (ix2 i (0 : Fin 1))

/-! ## The first graph layer -/

/-- The first gather: row e is the scaled features' row at the edge's source. -/
private theorem gather23 (x0 : FVec Ideal S2048x64 .f32) (x10 : IVec S65536 32) (src : Fin 65536 → Fin 2048)
    (hsrc : ∀ e : Fin 65536, (x10 (ix1 e)).toInt = ((src e).val : ℤ)) (e : Fin 65536) (k : Fin 64) :
    val_main_v23 (F := Ideal) x0 x10 (ix2 e k) = val_main_v16 (F := Ideal) x0 x10 (ix2 (src e) k) := by
  unfold val_main_v23
  refine (Cert.LibGatherRows.gather_rows_apply gather_S2048x64_S65536x1_S65536x64_1_0_n_n_0_1_164 rfl rfl rfl rfl rfl rfl
    (val_main_v16 (F := Ideal) x0 x10) (val_main_v22 (F := Ideal) x10) e k (by norm_num)).trans ?_
  refine congrArg (fun r => val_main_v16 (F := Ideal) x0 x10 (ix2 r k)) (Fin.ext ?_)
  show min (val_main_v22 (F := Ideal) x10 (ix2 e (0 : Fin 1))).toInt.toNat (2048 - 1) = (src e).val
  rw [word22 x10 src hsrc e]
  exact clip_word _ _ (hsrc e)

/-- The first segment sum: at (d, k) the sum over the edges that end at d of the scaled features at the edge's source. -/
private theorem scatter26 (x0 : FVec Ideal S2048x64 .f32) (x10 x11 : IVec S65536 32) (src dst : Fin 65536 → Fin 2048)
    (hsrc : ∀ e : Fin 65536, (x10 (ix1 e)).toInt = ((src e).val : ℤ))
    (hdst : ∀ e : Fin 65536, (x11 (ix1 e)).toInt = ((dst e).val : ℤ)) (d : Fin 2048) (k : Fin 64) :
    val_main_v26 (F := Ideal) x0 x10 x11 (ix2 d k)
      = Cert.Spec.segAgg dst src (val_main_v16 (F := Ideal) x0 x10) (ix2 d k) := by
  unfold val_main_v26
  refine (Cert.LibScatter.scatterAdd_rows_read scatter_S2048x64_S65536x1_S65536x64_1_0_0_1 rfl rfl rfl rfl
    (val_main_v24 (F := Ideal)) (val_main_v25 (F := Ideal) x11) (val_main_v23 (F := Ideal) x0 x10) d k).trans ?_
  rw [val_main_v24_apply, val_main_cst_7_apply, Ideal.ofBits_def, Ideal.ofBits_zero_f32, zero_add]
  unfold Cert.Spec.segAgg
  refine Finset.sum_congr (Finset.filter_congr fun e _ => ?_) fun e _ => gather23 x0 x10 src hsrc e k
  have hi : idx_main_v25 (ix2 e (0 : Fin 1)) = ix1 e := funext fun a => Fin.ext (by match a with | ⟨0, _⟩ => rfl)
  rw [val_main_v25_apply, hi, hdst e]
  show ((dst e).val : ℤ) = (d.val : ℤ) ↔ dst e = d
  rw [Nat.cast_inj, Fin.val_inj]

/-- The aggregated features scaled by the destination-side factor. -/
private theorem stage28 (x0 : FVec Ideal S2048x64 .f32) (x10 x11 : IVec S65536 32) (src dst : Fin 65536 → Fin 2048)
    (hsrc : ∀ e : Fin 65536, (x10 (ix1 e)).toInt = ((src e).val : ℤ))
    (hdst : ∀ e : Fin 65536, (x11 (ix1 e)).toInt = ((dst e).val : ℤ)) (d : Fin 2048) (k : Fin 64) :
    val_main_v28 (F := Ideal) x0 x10 x11 (ix2 d k)
      = Cert.Spec.segAgg dst src (val_main_v16 (F := Ideal) x0 x10) (ix2 d k) * nd x11 d := by
  have hi : idx_main_v27 (ix2 d k) = ix2 d (0 : Fin 1) :=
    funext fun a => Fin.ext (by match a with | ⟨0, _⟩ => rfl | ⟨1, _⟩ => rfl)
  rw [val_main_v28_apply, Ideal.mulf_def, scatter26 x0 x10 x11 src dst hsrc hdst d k, val_main_v27_apply, hi]

/-- The first graph layer: the dense layer of the specification on the first segment sum. -/
private theorem stage33 (x0 : FVec Ideal S2048x64 .f32) (x2 : FVec Ideal S64x4096 .f32) (x3 : FVec Ideal S4096 .f32)
    (x10 x11 : IVec S65536 32) (src dst : Fin 65536 → Fin 2048)
    (hsrc : ∀ e : Fin 65536, (x10 (ix1 e)).toInt = ((src e).val : ℤ))
    (hdst : ∀ e : Fin 65536, (x11 (ix1 e)).toInt = ((dst e).val : ℤ)) :
    val_main_v33 (F := Ideal) x0 x2 x3 x10 x11
      = Cert.Spec.dense1 (Cert.Spec.segAgg dst src (val_main_v16 (F := Ideal) x0 x10)) (nd x11) x2 (fun j => x3 (ix1 j)) := by
  funext i
  obtain ⟨d, j, rfl⟩ : ∃ (d : Fin 2048) (j : Fin 4096), i = ix2 d j := ⟨i 0, i 1, eq_ix2 i⟩
  have hb : idx_main_v30 (idx_main_v31 (ix2 d j)) = ix1 j :=
    funext fun a => Fin.ext (by match a with | ⟨0, _⟩ => rfl)
  have hl : ∀ k : Fin 64, lidx_main_v29 (ix2 d j) k = ix2 d k := fun k =>
    funext fun a => Fin.ext (by match a with | ⟨0, _⟩ => rfl | ⟨1, _⟩ => rfl)
  have hr : ∀ k : Fin 64, ridx_main_v29 (ix2 d j) k = ix2 k j := fun k =>
    funext fun a => Fin.ext (by match a with | ⟨0, _⟩ => rfl | ⟨1, _⟩ => rfl)
  rw [val_main_v33_apply, val_main_v32_apply, val_main_v29_apply, val_main_v31_apply, val_main_v30_apply, hb,
    val_main_call2_v0_apply, val_main_call2_cst_apply]
  simp only [Ideal.maximumf_def, Ideal.addf_def, Ideal.ofBits_def, Ideal.ofBits_zero_f32, hl, hr,
    stage28 x0 x10 x11 src dst hsrc hdst]
  rfl

/-! ## The second graph layer -/

/-- The second layer before its aggregation: the product with the weight, scaled by the source-side factor. -/
private theorem stage36 (x0 : FVec Ideal S2048x64 .f32) (x1 : FVec Ideal S4096x2048 .f32) (x2 : FVec Ideal S64x4096 .f32)
    (x3 : FVec Ideal S4096 .f32) (x10 x11 : IVec S65536 32) :
    val_main_v36 (F := Ideal) x0 x1 x2 x3 x10 x11
      = Cert.Spec.mm1 (val_main_v33 (F := Ideal) x0 x2 x3 x10 x11) x1 (ns x10) := by
  funext i
  obtain ⟨d, s, rfl⟩ : ∃ (d : Fin 2048) (s : Fin 2048), i = ix2 d s := ⟨i 0, i 1, eq_ix2 i⟩
  have hi : idx_main_v35 (ix2 d s) = ix2 d (0 : Fin 1) :=
    funext fun a => Fin.ext (by match a with | ⟨0, _⟩ => rfl | ⟨1, _⟩ => rfl)
  have hl : ∀ k : Fin 4096, lidx_main_v34 (ix2 d s) k = ix2 d k := fun k =>
    funext fun a => Fin.ext (by match a with | ⟨0, _⟩ => rfl | ⟨1, _⟩ => rfl)
  have hr : ∀ k : Fin 4096, ridx_main_v34 (ix2 d s) k = ix2 k s := fun k =>
    funext fun a => Fin.ext (by match a with | ⟨0, _⟩ => rfl | ⟨1, _⟩ => rfl)
  rw [val_main_v36_apply, val_main_v34_apply, val_main_v35_apply, hi]
  simp only [Ideal.mulf_def, hl, hr]
  rfl

/-- The second gather: row e is the row of the table at the edge's source. -/
private theorem gather43 (x0 : FVec Ideal S2048x64 .f32) (x1 : FVec Ideal S4096x2048 .f32) (x2 : FVec Ideal S64x4096 .f32)
    (x3 : FVec Ideal S4096 .f32) (x10 x11 : IVec S65536 32) (src : Fin 65536 → Fin 2048)
    (hsrc : ∀ e : Fin 65536, (x10 (ix1 e)).toInt = ((src e).val : ℤ)) (e : Fin 65536) (s : Fin 2048) :
    val_main_v43 (F := Ideal) x0 x1 x2 x3 x10 x11 (ix2 e s)
      = val_main_v36 (F := Ideal) x0 x1 x2 x3 x10 x11 (ix2 (src e) s) := by
  unfold val_main_v43
  refine (Cert.LibGatherRows.gather_rows_apply gather_S2048x2048_S65536x1_S65536x2048_1_0_n_n_0_1_12048 rfl rfl rfl rfl rfl rfl
    (val_main_v36 (F := Ideal) x0 x1 x2 x3 x10 x11) (val_main_v42 (F := Ideal) x10) e s (by norm_num)).trans ?_
  refine congrArg (fun r => val_main_v36 (F := Ideal) x0 x1 x2 x3 x10 x11 (ix2 r s)) (Fin.ext ?_)
  show min (val_main_v42 (F := Ideal) x10 (ix2 e (0 : Fin 1))).toInt.toNat (2048 - 1) = (src e).val
  rw [word42 x10 src hsrc e]
  exact clip_word _ _ (hsrc e)

/-- The second segment sum: at (d, s) the sum over the edges that end at d of the table at the edge's source. -/
private theorem scatter46 (x0 : FVec Ideal S2048x64 .f32) (x1 : FVec Ideal S4096x2048 .f32) (x2 : FVec Ideal S64x4096 .f32)
    (x3 : FVec Ideal S4096 .f32) (x10 x11 : IVec S65536 32) (src dst : Fin 65536 → Fin 2048)
    (hsrc : ∀ e : Fin 65536, (x10 (ix1 e)).toInt = ((src e).val : ℤ))
    (hdst : ∀ e : Fin 65536, (x11 (ix1 e)).toInt = ((dst e).val : ℤ)) (d s : Fin 2048) :
    val_main_v46 (F := Ideal) x0 x1 x2 x3 x10 x11 (ix2 d s)
      = Cert.Spec.segAgg dst src (val_main_v36 (F := Ideal) x0 x1 x2 x3 x10 x11) (ix2 d s) := by
  unfold val_main_v46
  refine (Cert.LibScatter.scatterAdd_rows_read scatter_S2048x2048_S65536x1_S65536x2048_1_0_0_1 rfl rfl rfl rfl
    (val_main_v44 (F := Ideal)) (val_main_v45 (F := Ideal) x11) (val_main_v43 (F := Ideal) x0 x1 x2 x3 x10 x11) d s).trans ?_
  rw [val_main_v44_apply, val_main_cst_10_apply, Ideal.ofBits_def, Ideal.ofBits_zero_f32, zero_add]
  unfold Cert.Spec.segAgg
  refine Finset.sum_congr (Finset.filter_congr fun e _ => ?_) fun e _ => gather43 x0 x1 x2 x3 x10 x11 src hsrc e s
  have hi : idx_main_v45 (ix2 e (0 : Fin 1)) = ix1 e := funext fun a => Fin.ext (by match a with | ⟨0, _⟩ => rfl)
  rw [val_main_v45_apply, hi, hdst e]
  show ((dst e).val : ℤ) = (d.val : ℤ) ↔ dst e = d
  rw [Nat.cast_inj, Fin.val_inj]

/-- The second layer after its aggregation: scaled by the destination-side factor and clipped below at zero. -/
private theorem stage49 (x0 : FVec Ideal S2048x64 .f32) (x1 : FVec Ideal S4096x2048 .f32) (x2 : FVec Ideal S64x4096 .f32)
    (x3 : FVec Ideal S4096 .f32) (x10 x11 : IVec S65536 32) (src dst : Fin 65536 → Fin 2048)
    (hsrc : ∀ e : Fin 65536, (x10 (ix1 e)).toInt = ((src e).val : ℤ))
    (hdst : ∀ e : Fin 65536, (x11 (ix1 e)).toInt = ((dst e).val : ℤ)) (d s : Fin 2048) :
    val_main_v49 (F := Ideal) x0 x1 x2 x3 x10 x11 (ix2 d s)
      = max (Cert.Spec.segAgg dst src (val_main_v36 (F := Ideal) x0 x1 x2 x3 x10 x11) (ix2 d s) * nd x11 d) 0 := by
  have hi : idx_main_v47 (ix2 d s) = ix2 d (0 : Fin 1) :=
    funext fun a => Fin.ext (by match a with | ⟨0, _⟩ => rfl | ⟨1, _⟩ => rfl)
  rw [val_main_v49_apply, val_main_v48_apply, scatter46 x0 x1 x2 x3 x10 x11 src dst hsrc hdst d s, val_main_v47_apply, hi,
    val_main_call3_v0_apply, val_main_call3_cst_apply]
  simp only [Ideal.maximumf_def, Ideal.mulf_def, Ideal.ofBits_def, Ideal.ofBits_zero_f32]

/-! ## The head -/

/-- The head's first dense layer at (d, p). -/
private theorem stage54 (x0 : FVec Ideal S2048x64 .f32) (x1 : FVec Ideal S4096x2048 .f32) (x2 : FVec Ideal S64x4096 .f32)
    (x3 : FVec Ideal S4096 .f32) (x4 : FVec Ideal S2048x64 .f32) (x5 : FVec Ideal S64 .f32) (x10 x11 : IVec S65536 32)
    (src dst : Fin 65536 → Fin 2048)
    (hsrc : ∀ e : Fin 65536, (x10 (ix1 e)).toInt = ((src e).val : ℤ))
    (hdst : ∀ e : Fin 65536, (x11 (ix1 e)).toInt = ((dst e).val : ℤ)) (d : Fin 2048) (p : Fin 64) :
    val_main_v54 (F := Ideal) x0 x1 x2 x3 x4 x5 x10 x11 (ix2 d p)
      = max ((∑ s : Fin 2048,
          max (Cert.Spec.segAgg dst src (val_main_v36 (F := Ideal) x0 x1 x2 x3 x10 x11) (ix2 d s) * nd x11 d) 0
            * x4 (ix2 s p)) + x5 (ix1 p)) 0 := by
  have hb : idx_main_v51 (idx_main_v52 (ix2 d p)) = ix1 p :=
    funext fun a => Fin.ext (by match a with | ⟨0, _⟩ => rfl)
  have hl : ∀ k : Fin 2048, lidx_main_v50 (ix2 d p) k = ix2 d k := fun k =>
    funext fun a => Fin.ext (by match a with | ⟨0, _⟩ => rfl | ⟨1, _⟩ => rfl)
  have hr : ∀ k : Fin 2048, ridx_main_v50 (ix2 d p) k = ix2 k p := fun k =>
    funext fun a => Fin.ext (by match a with | ⟨0, _⟩ => rfl | ⟨1, _⟩ => rfl)
  rw [val_main_v54_apply, val_main_v53_apply, val_main_v50_apply, val_main_v52_apply, val_main_v51_apply, hb,
    val_main_call4_v0_apply, val_main_call4_cst_apply]
  simp only [Ideal.maximumf_def, Ideal.addf_def, Ideal.ofBits_def, Ideal.ofBits_zero_f32, hl, hr,
    stage49 x0 x1 x2 x3 x10 x11 src dst hsrc hdst]

/-- The head's second dense layer at (d, q). -/
private theorem stage59 (x0 : FVec Ideal S2048x64 .f32) (x1 : FVec Ideal S4096x2048 .f32) (x2 : FVec Ideal S64x4096 .f32)
    (x3 : FVec Ideal S4096 .f32) (x4 : FVec Ideal S2048x64 .f32) (x5 : FVec Ideal S64 .f32) (x6 : FVec Ideal S64x16 .f32)
    (x7 : FVec Ideal S16 .f32) (x10 x11 : IVec S65536 32)
    (src dst : Fin 65536 → Fin 2048)
    (hsrc : ∀ e : Fin 65536, (x10 (ix1 e)).toInt = ((src e).val : ℤ))
    (hdst : ∀ e : Fin 65536, (x11 (ix1 e)).toInt = ((dst e).val : ℤ)) (d : Fin 2048) (q : Fin 16) :
    val_main_v59 (F := Ideal) x0 x1 x2 x3 x4 x5 x6 x7 x10 x11 (ix2 d q)
      = max ((∑ p : Fin 64,
          max ((∑ s : Fin 2048,
            max (Cert.Spec.segAgg dst src (val_main_v36 (F := Ideal) x0 x1 x2 x3 x10 x11) (ix2 d s) * nd x11 d) 0
              * x4 (ix2 s p)) + x5 (ix1 p)) 0
            * x6 (ix2 p q)) + x7 (ix1 q)) 0 := by
  have hb : idx_main_v56 (idx_main_v57 (ix2 d q)) = ix1 q :=
    funext fun a => Fin.ext (by match a with | ⟨0, _⟩ => rfl)
  have hl : ∀ k : Fin 64, lidx_main_v55 (ix2 d q) k = ix2 d k := fun k =>
    funext fun a => Fin.ext (by match a with | ⟨0, _⟩ => rfl | ⟨1, _⟩ => rfl)
  have hr : ∀ k : Fin 64, ridx_main_v55 (ix2 d q) k = ix2 k q := fun k =>
    funext fun a => Fin.ext (by match a with | ⟨0, _⟩ => rfl | ⟨1, _⟩ => rfl)
  rw [val_main_v59_apply, val_main_v58_apply, val_main_v55_apply, val_main_v57_apply, val_main_v56_apply, hb,
    val_main_call5_v0_apply, val_main_call5_cst_apply]
  simp only [Ideal.maximumf_def, Ideal.addf_def, Ideal.ofBits_def, Ideal.ofBits_zero_f32, hl, hr,
    stage54 x0 x1 x2 x3 x4 x5 x10 x11 src dst hsrc hdst]

/-- The reference's result, at index words that name nodes (`src e`, `dst e`): the two segment sums over the
    in-edges, around the same dense layers. Its per-node factors and scaled features are the reference's own
    stages `val_main_v11` (source side), `val_main_v14` (destination side) and `val_main_v16`. -/
theorem ref_eq (x0 : FVec Ideal S2048x64 .f32) (x1 : FVec Ideal S4096x2048 .f32) (x2 : FVec Ideal S64x4096 .f32)
    (x3 : FVec Ideal S4096 .f32) (x4 : FVec Ideal S2048x64 .f32) (x5 : FVec Ideal S64 .f32) (x6 : FVec Ideal S64x16 .f32)
    (x7 : FVec Ideal S16 .f32) (x8 : FVec Ideal S16x1 .f32) (x9 : FVec Ideal S1 .f32) (x10 x11 : IVec S65536 32)
    (src dst : Fin 65536 → Fin 2048)
    (hsrc : ∀ e : Fin 65536, (x10 (ix1 e)).toInt = ((src e).val : ℤ))
    (hdst : ∀ e : Fin 65536, (x11 (ix1 e)).toInt = ((dst e).val : ℤ)) :
    val_main_v63 (F := Ideal) x0 x1 x2 x3 x4 x5 x6 x7 x8 x9 x10 x11
      = Cert.Spec.refOut dst src (val_main_v16 (F := Ideal) x0 x10)
          (fun i => val_main_v14 (F := Ideal) x11 (ix2 i (0 : Fin 1)))
          (fun i => val_main_v11 (F := Ideal) x10 (ix2 i (0 : Fin 1)))
          x2 (fun j => x3 (ix1 j)) x1 x4 (fun p => x5 (ix1 p)) x6 (fun q => x7 (ix1 q)) x8 (fun u => x9 (ix1 u)) := by
  funext i
  obtain ⟨d, u, rfl⟩ : ∃ (d : Fin 2048) (u : Fin 1), i = ix2 d u := ⟨i 0, i 1, eq_ix2 i⟩
  have hb : idx_main_v61 (idx_main_v62 (ix2 d u)) = ix1 u :=
    funext fun a => Fin.ext (by match a with | ⟨0, _⟩ => exact (Nat.lt_one_iff.mp u.isLt).symm)
  have hl : ∀ k : Fin 16, lidx_main_v60 (ix2 d u) k = ix2 d k := fun k =>
    funext fun a => Fin.ext (by match a with | ⟨0, _⟩ => rfl | ⟨1, _⟩ => rfl)
  have hr : ∀ k : Fin 16, ridx_main_v60 (ix2 d u) k = ix2 k u := fun k =>
    funext fun a => Fin.ext (by match a with | ⟨0, _⟩ => rfl | ⟨1, _⟩ => rfl)
  rw [val_main_v63_apply, val_main_v60_apply, val_main_v62_apply, val_main_v61_apply, hb]
  simp only [Ideal.addf_def, hl, hr, stage59 x0 x1 x2 x3 x4 x5 x6 x7 x10 x11 src dst hsrc hdst]
  rw [stage36 x0 x1 x2 x3 x10 x11, stage33 x0 x2 x3 x10 x11 src dst hsrc hdst]
  rfl

end Cert.RefSide

end
-- ==== Proof.Bridge.lean ====
import proofs.«407745_j8830452760606_3_alg».proof.Proof.KI.HostDefs
import proofs.«407745_j8830452760606_3_alg».proof.Proof.Gen.ReferenceIdeal.Read
import proofs.«407745_j8830452760606_3_alg».proof.Proof.Spec
import proofs.«407745_j8830452760606_3_alg».proof.Proof.LibScatter
import Idealize.ShloMosaic.Lib.Pipeline.Value
import Idealize.ShloMosaic.Lib.IdealHost

set_option maxRecDepth 16384

noncomputable section

open scoped BigOperators

namespace Cert.Bridge

open Idealize.ShloMosaic Idealize.ShloMosaic.ValueIdx

/-- The kernel's per-node factor is the reference's source-side stage: the same operations of the index words. -/
theorem norm_src_eq (x10 : IVec Cert.KernelIdeal.S65536 32) :
    Cert.KI.Host.normK x10 = Cert.ReferenceIdeal.Read.val_main_v11 (F := Ideal) x10 := rfl

/-- The kernel's per-node factor is the reference's destination-side stage. -/
theorem norm_dst_eq (x11 : IVec Cert.KernelIdeal.S65536 32) :
    Cert.KI.Host.normK x11 = Cert.ReferenceIdeal.Read.val_main_v14 (F := Ideal) x11 := rfl

/-- The kernel's scaled features are the reference's. -/
theorem hs_eq (x0 : FVec Ideal Cert.KernelIdeal.S2048x64 .f32) (x10 : IVec Cert.KernelIdeal.S65536 32) :
    Cert.KI.Host.hsK x0 x10 = Cert.ReferenceIdeal.Read.val_main_v16 (F := Ideal) x0 x10 := rfl

/-! ## A scatter-add along both axes of a matrix, read at one element -/

/-- An update lands on element `i` exactly when, on every operand axis, its window start plus its window
    coordinate is that axis's coordinate of `i`. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := congrArg (fun f : s.Idx => (f a).val) (Option.some.inj e)
      simp only at e'
      have := h a
      omega
    · intro e
      refine congrArg some (funext fun a => Fin.ext ?_)
      have := e a
      have := h a
      show (d.start j idx a + d.window j a).toNat = (i a).val
      omega
  · constructor
    · intro e; exact absurd e (by simp)
    · intro e; exfalso; apply h; intro a
      have := e a
      have := (i a).isLt
      omega

/-- On the matrix's row axis an update's window starts at the first word of its edge's index pair, read signed. -/
private theorem pair_start0 {R C n : Nat} (d : ScatterDims ⟨2, ![R, C]⟩ ⟨2, ![n, 2]⟩ ⟨1, ![n]⟩)
    (h1 : d.updateWindowDims = []) (h2 : d.insertedWindowDims = [0, 1]) (h3 : d.scatterDimsToOperandDims = [0, 1])
    (h4 : d.indexVectorDim = 1) (idx : IVec ⟨2, ![n, 2]⟩ 32) (j : (⟨1, ![n]⟩ : Shape).Idx) :
    d.start j idx 0 = (idx (ix2 (j 0) (0 : Fin 2))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (show (0 : Fin 2) ∈ ([0, 1] : List (Fin 2)) by decide) ha

/-- On the column axis it starts at the second word of the pair. -/
private theorem pair_start1 {R C n : Nat} (d : ScatterDims ⟨2, ![R, C]⟩ ⟨2, ![n, 2]⟩ ⟨1, ![n]⟩)
    (h1 : d.updateWindowDims = []) (h2 : d.insertedWindowDims = [0, 1]) (h3 : d.scatterDimsToOperandDims = [0, 1])
    (h4 : d.indexVectorDim = 1) (idx : IVec ⟨2, ![n, 2]⟩ 32) (j : (⟨1, ![n]⟩ : Shape).Idx) :
    d.start j idx 1 = (idx (ix2 (j 0) (1 : Fin 2))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (show (1 : Fin 2) ∈ ([0, 1] : List (Fin 2)) by decide) ha

/-- Both axes of the matrix are inserted ones: the window coordinate is zero on each. -/
private theorem pair_window {R C n : Nat} (d : ScatterDims ⟨2, ![R, C]⟩ ⟨2, ![n, 2]⟩ ⟨1, ![n]⟩)
    (h1 : d.updateWindowDims = []) (h2 : d.insertedWindowDims = [0, 1]) (h3 : d.scatterDimsToOperandDims = [0, 1])
    (h4 : d.indexVectorDim = 1) (j : (⟨1, ![n]⟩ : Shape).Idx) (a : Fin 2) :
    d.window j a = 0 := by
  obtain ⟨uw, iw, sd, iv, wf⟩ := d
  dsimp only at h1 h2 h3 h4
  subst h1 h2 h3 h4
  unfold ScatterDims.window
  split_ifs with ha
  · exact absurd (show a ∈ ([] : List (Fin 2)) from ha) List.not_mem_nil
  · rfl

/-- The two-axis scatter-add at element `(r, c)`: the operand's element plus the updates of the edges whose pair
    of index words, read signed, is `(r, c)`. -/
private theorem scatterAdd_pair_read {R C n : Nat} {φ : FTy} (d : ScatterDims ⟨2, ![R, C]⟩ ⟨2, ![n, 2]⟩ ⟨1, ![n]⟩)
    (h1 : d.updateWindowDims = []) (h2 : d.insertedWindowDims = [0, 1]) (h3 : d.scatterDimsToOperandDims = [0, 1])
    (h4 : d.indexVectorDim = 1)
    (x : (⟨2, ![R, C]⟩ : Shape).Idx → EReal) (idx : IVec ⟨2, ![n, 2]⟩ 32) (upd : (⟨1, ![n]⟩ : Shape).Idx → EReal)
    (r : Fin R) (c : Fin C) :
    Host.scatterAdd (F := Ideal) (φ := φ) d x idx upd (ix2 r c)
      = x (ix2 r c) + ∑ e ∈ Finset.univ.filter (fun e : Fin n =>
          (idx (ix2 e (0 : Fin 2))).toInt = (r.val : ℤ) ∧ (idx (ix2 e (1 : Fin 2))).toInt = (c.val : ℤ)),
          upd (ix1 e) := by
  have key : ∀ j : (⟨1, ![n]⟩ : Shape).Idx,
      d.resultIdx? j idx = some (ix2 r c)
        ↔ ((idx (ix2 (j 0) (0 : Fin 2))).toInt = (r.val : ℤ) ∧ (idx (ix2 (j 0) (1 : Fin 2))).toInt = (c.val : ℤ)) := by
    intro j
    rw [resultIdx?_eq_some_iff]
    constructor
    · intro e
      have e0 : d.start j idx 0 + (d.window j 0 : ℤ) = (r.val : ℤ) := e 0
      have e1 : d.start j idx 1 + (d.window j 1 : ℤ) = (c.val : ℤ) := e 1
      rw [pair_start0 d h1 h2 h3 h4, pair_window d h1 h2 h3 h4] at e0
      rw [pair_start1 d h1 h2 h3 h4, pair_window d h1 h2 h3 h4] at e1
      exact ⟨by simpa using e0, by simpa using e1⟩
    · rintro ⟨e0, e1⟩ a
      match a with
      | ⟨0, _⟩ =>
        show d.start j idx 0 + (d.window j 0 : ℤ) = (r.val : ℤ)
        rw [pair_start0 d h1 h2 h3 h4, pair_window d h1 h2 h3 h4]
        simpa using e0
      | ⟨1, _⟩ =>
        show d.start j idx 1 + (d.window j 1 : ℤ) = (c.val : ℤ)
        rw [pair_start1 d h1 h2 h3 h4, pair_window d h1 h2 h3 h4]
        simpa using e1
  show Ideal.hostScatterAdd d x idx upd (ix2 r c) = _
  unfold Ideal.hostScatterAdd
  congr 1
  refine Finset.sum_nbij' (fun j : (⟨1, ![n]⟩ : Shape).Idx => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _; exact (eq_ix1 j).symm
  · intro e _; rfl
  · intro j _; exact congrArg upd (eq_ix1 j)

/-! ## The kernel's index pairs -/

open Cert.KernelIdeal Cert.KernelIdeal.Facts₀ Cert.KernelIdeal.Facts in
/-- A word that is not negative, read signed, is not wrapped. -/
private theorem wrapK_of_nonneg (x : IVec Cert.KernelIdeal.S65536 32) (j : Cert.KernelIdeal.S65536.Idx)
    (h : 0 ≤ (x j).toInt) : Cert.KI.Host.wrapK x j = x j := by
  have hlt : (x j).slt 0#32 = false := by
    simp only [BitVec.slt, BitVec.toInt_zero, decide_eq_false_iff_not, Int.not_lt]
    exact h
  show (if BitVec.ofBool ((x j).slt 0#32) = 1 then _ else _) = _
  rw [hlt]
  rfl

open Cert.KernelIdeal Cert.KernelIdeal.Facts₀ Cert.KernelIdeal.Facts in
/-- The first word of edge `e`'s pair is the first list's word `e`. -/
private theorem pair_word0 (a b : IVec S65536 32) (e : Fin 65536) :
    concatenate S65536x2 1 [⟨S65536x1, broadcastInDim S65536x1 ![0] bcast_S65536_S65536x1_0 a⟩,
        ⟨S65536x1, broadcastInDim S65536x1 ![0] bcast_S65536_S65536x1_0 b⟩] concatenates_S65536x1_S65536x1_S65536x2_d1
      (ix2 e (0 : Fin 2)) = a (ix1 e) := by
  refine (concatenate_pair_apply_left (1 : Fin S65536x2.rank) _ _ concatenates_S65536x1_S65536x1_S65536x2_d1
    (ix2 e (0 : Fin 2)) rfl (ix2 e (0 : Fin 1)) (fun q => match q with | ⟨0, _⟩ => rfl | ⟨1, _⟩ => rfl)).trans ?_
  exact broadcastInDim_apply ![0] bcast_S65536_S65536x1_0 a (ix2 e (0 : Fin 1)) (ix1 e)
    (fun q => match q with | ⟨0, _⟩ => rfl)

open Cert.KernelIdeal Cert.KernelIdeal.Facts₀ Cert.KernelIdeal.Facts in
/-- The second word of edge `e`'s pair is the second list's word `e`. -/
private theorem pair_word1 (a b : IVec S65536 32) (e : Fin 65536) :
    concatenate S65536x2 1 [⟨S65536x1, broadcastInDim S65536x1 ![0] bcast_S65536_S65536x1_0 a⟩,
        ⟨S65536x1, broadcastInDim S65536x1 ![0] bcast_S65536_S65536x1_0 b⟩] concatenates_S65536x1_S65536x1_S65536x2_d1
      (ix2 e (1 : Fin 2)) = b (ix1 e) := by
  refine (concatenate_pair_apply_right (1 : Fin S65536x2.rank) _ _ concatenates_S65536x1_S65536x1_S65536x2_d1
    (ix2 e (1 : Fin 2)) rfl rfl (ix2 e (0 : Fin 1))
    (fun q hq => match q, hq with | ⟨0, _⟩, _ => rfl | ⟨1, _⟩, hq => absurd rfl hq) rfl).trans ?_
  exact broadcastInDim_apply ![0] bcast_S65536_S65536x1_0 b (ix2 e (0 : Fin 1)) (ix1 e)
    (fun q => match q with | ⟨0, _⟩ => rfl)

/-! ## The count matrix -/

/-- At index words that name nodes, the kernel's scattered matrix counts, at (d, s), the edges from s to d: a
    word in range is not wrapped, the pair (dst e, src e) lands at its own entry, and each landing adds one. -/
theorem adj_eq (x10 x11 : IVec Cert.KernelIdeal.S65536 32) (src dst : Fin 65536 → Fin 2048)
    (hsrc : ∀ e : Fin 65536, (x10 (ix1 e)).toInt = ((src e).val : ℤ))
    (hdst : ∀ e : Fin 65536, (x11 (ix1 e)).toInt = ((dst e).val : ℤ)) :
    Cert.KI.Host.adjK x10 x11 = Cert.Spec.cnt dst src := by
  funext i
  obtain ⟨d, s, rfl⟩ : ∃ (d s : Fin 2048), i = ix2 d s := ⟨i 0, i 1, eq_ix2 i⟩
  -- a word that names a node is not negative, so it is not wrapped
  have hw10 : ∀ e : Fin 65536, Cert.KI.Host.wrapK x10 (ix1 e) = x10 (ix1 e) := fun e =>
    wrapK_of_nonneg x10 (ix1 e) (by rw [hsrc e]; exact Int.natCast_nonneg _)
  have hw11 : ∀ e : Fin 65536, Cert.KI.Host.wrapK x11 (ix1 e) = x11 (ix1 e) := fun e =>
    wrapK_of_nonneg x11 (ix1 e) (by rw [hdst e]; exact Int.natCast_nonneg _)
  unfold Cert.KI.Host.adjK
  -- the narrowing is the identity on the extended reals; read the scatter-add at (d, s)
  refine (scatterAdd_pair_read (φ := .f32) Cert.KernelIdeal.scatter_S2048x2048_S65536x2_S65536_n_01_01_1 rfl rfl rfl rfl
    _ _ _ d s).trans ?_
  -- the matrix scattered into is zero
  show Ideal.ofBits .f32 0x00000000#32 + _ = _
  rw [Ideal.ofBits_zero_f32, zero_add]
  unfold Cert.Spec.cnt
  refine Finset.sum_congr (Finset.filter_congr fun e _ => ?_) (fun e _ => ?_)
  · -- edge e lands at (d, s) exactly when it ends at d and starts at s
    rw [pair_word0, pair_word1, hw11 e, hw10 e, hdst e, hsrc e]
    show _ ↔ (dst e = d ∧ src e = s)
    constructor
    · rintro ⟨h0, h1⟩
      exact ⟨Fin.ext (Int.natCast_inj.1 h0), Fin.ext (Int.natCast_inj.1 h1)⟩
    · rintro ⟨h0, h1⟩
      exact ⟨by rw [h0], by rw [h1]⟩
  · -- each update is the number one
    exact Ideal.ofBits_one_f32

end Cert.Bridge

end
-- ==== Proof.SpecLaw.lean ====
/-
  The product with the count matrix is the sum over in-edges.

  Row d of `cnt · h` is `∑ s, (number of edges s → d) · h s`. A natural number n times an extended real x is the
  sum of n copies of x (for n = 0 both are 0, whatever x is), so the row is the sum over s of the sum over the
  edges s → d of `h s`, which is the sum over all edges into d of `h` at the edge's source: the edges into d
  are partitioned by their source.
-/
import proofs.«407745_j8830452760606_3_alg».proof.Proof.Spec
import Mathlib.Data.EReal.Operations
import Mathlib.Algebra.BigOperators.Group.Finset.Basic

noncomputable section

open scoped BigOperators

namespace Cert.Spec

open Idealize.ShloMosaic Idealize.ShloMosaic.ValueIdx

/-- A sum of ones over a finite set, times `x`, is the sum of that many copies of `x`. This holds for every
extended real `x`, the infinite ones included: a natural number `n` times `x` is `n` copies of `x` added up
(for `n = 0` both are `0`; for `n ≥ 1` and `x = ⊤` both are `⊤`, and likewise for `⊥`). -/
private theorem sum_one_mul {ι : Type} (F : Finset ι) (x : EReal) :
    (∑ _e ∈ F, (1 : EReal)) * x = ∑ _e ∈ F, x := by
  rw [Finset.sum_const, Finset.sum_const, EReal.nsmul_eq_mul, EReal.nsmul_eq_mul, mul_one]

/-- The product of the count matrix with a table is the table's rows summed over the in-edges of each node. -/
theorem matAgg_cnt {D : Nat} (dst src : Fin 65536 → Fin 2048) (h : Mat 2048 D) :
    matAgg (cnt dst src) h = segAgg dst src h := by
  funext i
  unfold matAgg cnt segAgg
  -- The edges into `row i` are partitioned by their source.
  rw [← Finset.sum_fiberwise (Finset.univ.filter (fun e : Fin 65536 => dst e = row i)) src
    (fun e => h (ix2 (src e) (col i)))]
  refine Finset.sum_congr rfl (fun s _ => ?_)
  -- The count of the edges from `s`, times the table's entry at `s`, is that entry once for each such edge.
  rw [sum_one_mul, Finset.filter_filter]
  refine Finset.sum_congr rfl (fun e he => ?_)
  rw [(Finset.mem_filter.1 he).2.2]

/-- With the count matrix for `A`, the kernel's function is the reference's. -/
theorem kernelOut_cnt (dst src : Fin 65536 → Fin 2048) (hs : Mat 2048 64) (nd ns : Fin 2048 → EReal) (W1 : Mat 64 4096)
    (b1 : Fin 4096 → EReal) (Wt : Mat 4096 2048) (Wl1 : Mat 2048 64) (bl1 : Fin 64 → EReal) (Wl2 : Mat 64 16)
    (bl2 : Fin 16 → EReal) (Wl3 : Mat 16 1) (bl3 : Fin 1 → EReal) :
    kernelOut (cnt dst src) hs nd ns W1 b1 Wt Wl1 bl1 Wl2 bl2 Wl3 bl3
      = refOut dst src hs nd ns W1 b1 Wt Wl1 bl1 Wl2 bl2 Wl3 bl3 := by
  unfold kernelOut refOut
  rw [matAgg_cnt, matAgg_cnt]

end Cert.Spec

end
-- ==== Proof.PreRange.lean ====
import proofs.«407745_j8830452760606_3_alg».proof.Pre_finite_inputs
import proofs.«407745_j8830452760606_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.PreRange

open Cert.Pre_finite_inputs Idealize.ShloMosaic Idealize.ShloMosaic.ValueIdx

/-- A word that compares ≥ 0 (signed) has a nonnegative signed reading. -/
theorem nonneg_of_sge (a : BitVec 32) (h : IntOp.cmpi .sge a 0#32 = 1#1) : 0 ≤ a.toInt := by
  have h' : (0#32 : BitVec 32).sle a = true := (StableHlo.Predicate.ofBool_eq_one_iff _).1 h
  have := BitVec.sle_iff_toInt_le.mp h'
  simpa using this

/-- A word that compares < 2048 (signed) has a signed reading below 2048. -/
theorem lt_of_slt (a : BitVec 32) (h : IntOp.cmpi .slt a 2048#32 = 1#1) : a.toInt < 2048 := by
  have h' : a.slt (2048#32 : BitVec 32) = true := (StableHlo.Predicate.ofBool_eq_one_iff _).1 h
  have := BitVec.slt_iff_toInt_lt.mp h'
  have e : (2048#32 : BitVec 32).toInt = 2048 := by decide
  omega

/-- Under the precondition every index word of both lists, read signed, names a node: it lies in [0, 2048). -/
theorem range_of_pre (x0 : FVec Ideal S2048x64 .f32) (x1 : FVec Ideal S4096x2048 .f32) (x2 : FVec Ideal S64x4096 .f32)
    (x3 : FVec Ideal S4096 .f32) (x4 : FVec Ideal S2048x64 .f32) (x5 : FVec Ideal S64 .f32) (x6 : FVec Ideal S64x16 .f32)
    (x7 : FVec Ideal S16 .f32) (x8 : FVec Ideal S16x1 .f32) (x9 : FVec Ideal S1 .f32) (x10 x11 : IVec S65536 32)
    (h : Cert.Pre_finite_inputs.fn (F := Ideal) x0 x1 x2 x3 x4 x5 x6 x7 x8 x9 x10 x11 = fun _ => 1#1) :
    (∀ e : Fin 65536, 0 ≤ (x10 (ix1 e)).toInt ∧ (x10 (ix1 e)).toInt < 2048)
      ∧ (∀ e : Fin 65536, 0 ≤ (x11 (ix1 e)).toInt ∧ (x11 (ix1 e)).toInt < 2048) := by
  have h0 := congrFun h ValueIdx.ix0
  dsimp only [Cert.Pre_finite_inputs.fn, fn_part1, fn_part2, fn_part3] at h0
  simp only [andi, IntOp.andi_eq_one] at h0
  obtain ⟨⟨⟨⟨_, ha⟩, hb⟩, hc⟩, hd⟩ := h0
  haveI : Subsingleton S_.Idx := ⟨fun a b => funext fun d => d.elim0⟩
  refine ⟨fun e => ⟨?_, ?_⟩, fun e => ⟨?_, ?_⟩⟩
  · exact nonneg_of_sge _ (Host.reduce_andi_all _ _ _ _ ix0 ha (ix1 e))
  · exact lt_of_slt _ (Host.reduce_andi_all _ _ _ _ ix0 hb (ix1 e))
  · exact nonneg_of_sge _ (Host.reduce_andi_all _ _ _ _ ix0 hc (ix1 e))
  · exact lt_of_slt _ (Host.reduce_andi_all _ _ _ _ ix0 hd (ix1 e))

end Cert.PreRange

end
-- ==== Proof.lean ====
/-
  The kernel builds, once, the matrix that counts the edges from s to d, and does both graph aggregations as
  products with it; the reference sums the gathered rows over the in-edges. At index words that name nodes
  (the precondition's range conjuncts) the counted matrix times a table IS the sum over in-edges
  (`Spec.matAgg_cnt`), and everything around the two aggregations is the same chain of dense layers, so the two
  results are one function of the arguments (`Spec.kernelOut_cnt`). No law used needs finiteness.
-/
import proofs.«407745_j8830452760606_3_alg».proof.Defs
import proofs.«407745_j8830452760606_3_alg».proof.Proof.Gen.Kernel
import proofs.«407745_j8830452760606_3_alg».proof.Proof.Gen.Kernel.Skeleton
import proofs.«407745_j8830452760606_3_alg».proof.Proof.Gen.Kernel.Launch
import proofs.«407745_j8830452760606_3_alg».proof.Proof.Gen.Kernel.Points
import proofs.«407745_j8830452760606_3_alg».proof.Proof.Gen.Kernel.Frame
import proofs.«407745_j8830452760606_3_alg».proof.Proof.Gen.KernelIdeal
import proofs.«407745_j8830452760606_3_alg».proof.Proof.Gen.KernelIdeal.Skeleton
import proofs.«407745_j8830452760606_3_alg».proof.Proof.Gen.KernelIdeal.Launch
import proofs.«407745_j8830452760606_3_alg».proof.Proof.Gen.KernelIdeal.Points
import proofs.«407745_j8830452760606_3_alg».proof.Proof.Gen.KernelIdeal.Frame
import proofs.«407745_j8830452760606_3_alg».proof.Proof.Gen.ReferenceIdeal
import proofs.«407745_j8830452760606_3_alg».proof.Proof.Gen.ReferenceIdeal.Run
import proofs.«407745_j8830452760606_3_alg».proof.Proof.Gen.ReferenceIdeal.Read
import proofs.«407745_j8830452760606_3_alg».proof.Proof.Gen.Pre_finite_inputs
import proofs.«407745_j8830452760606_3_alg».proof.Proof.KI.Run
import proofs.«407745_j8830452760606_3_alg».proof.Proof.KI.Host
import proofs.«407745_j8830452760606_3_alg».proof.Proof.RefSide
import proofs.«407745_j8830452760606_3_alg».proof.Proof.Bridge
import proofs.«407745_j8830452760606_3_alg».proof.Proof.SpecLaw
import proofs.«407745_j8830452760606_3_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- An index word in [0, 2048), read signed, as the node it names. -/
def nodeOf (x : IVec Cert.KernelIdeal.S65536 32)
    (h : ∀ e : Fin 65536, 0 ≤ (x (ix1 e)).toInt ∧ (x (ix1 e)).toInt < 2048) (e : Fin 65536) : Fin 2048 :=
  ⟨(x (ix1 e)).toInt.toNat, by have := h e; omega⟩

theorem nodeOf_val (x : IVec Cert.KernelIdeal.S65536 32)
    (h : ∀ e : Fin 65536, 0 ≤ (x (ix1 e)).toInt ∧ (x (ix1 e)).toInt < 2048) (e : Fin 65536) :
    (x (ix1 e)).toInt = ((nodeOf x h e).val : ℤ) := by
  have := h e
  show _ = (((x (ix1 e)).toInt.toNat : ℕ) : ℤ)
  omega

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at one function of the arguments: the kernel's threaded through its three
    calls, the reference's read stage by stage, joined by the count-matrix identity at in-range index words. -/
theorem algebraic : Cert.algebraic_KernelIdeal_ReferenceIdeal := by
  intro m ρ m' ρ' hpre hagree
  refine ⟨fun c => Cert.KernelIdeal.Gen.W9 m ρ c (Proc.devRef .tc Cert.KernelIdeal.main_v40),
    Cert.KI.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  obtain ⟨r10, r11⟩ := Cert.PreRange.range_of_pre _ _ _ _ _ _ _ _ _ _ _ _ (hpre c)
  rw [Cert.ReferenceIdeal.Read.val_main_v63_eq, a0, a1, a2, a3, a4, a5, a6, a7, a8, a9, a10, a11]
  rw [Cert.RefSide.ref_eq _ _ _ _ _ _ _ _ _ _ _ _ (nodeOf _ r10) (nodeOf _ r11) (nodeOf_val _ r10) (nodeOf_val _ r11)]
  show _ = Cert.KernelIdeal.Gen.W9 m ρ c (Proc.devRef .tc Cert.KernelIdeal.main_v40)
  rw [Cert.KI.Host.result_eq m ρ c,
    Cert.Bridge.adj_eq _ _ (nodeOf _ r10) (nodeOf _ r11) (nodeOf_val _ r10) (nodeOf_val _ r11),
    Cert.Spec.kernelOut_cnt, Cert.Bridge.hs_eq,
    Cert.Bridge.norm_dst_eq (m ((c.tc : Thread Cert.KernelIdeal.nD Cert.KernelIdeal.τ).loc Cert.KernelIdeal.main_arg11)),
    Cert.Bridge.norm_src_eq (m ((c.tc : Thread Cert.KernelIdeal.nD Cert.KernelIdeal.τ).loc Cert.KernelIdeal.main_arg10))]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
